-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg1 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S1000000x256 .f32) (main_arg1 : IVec S1000000 32) (main_arg2 : FVec F S256x64 .f32) (main_arg3 : FVec F S64x256 .f32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 32 := constantI S_ 32 64#32
  fn_part1 (F := F) main_arg1 main_v13 main_v15 main_c_5
-- ==== Kernel.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S1000000x1 : Shape := ⟨2, ![1000000, 1]⟩
abbrev S2x64x256 : Shape := ⟨3, ![2, 64, 256]⟩
abbrev S2x64x1 : Shape := ⟨3, ![2, 64, 1]⟩
abbrev S4000x256 : Shape := ⟨2, ![4000, 256]⟩
abbrev S4000x1 : Shape := ⟨2, ![4000, 1]⟩
abbrev S1x64x256 : Shape := ⟨3, ![1, 64, 256]⟩
abbrev S1x64x1 : Shape := ⟨3, ![1, 64, 1]⟩
abbrev S64x1 : Shape := ⟨2, ![64, 1]⟩
abbrev S4000x64 : Shape := ⟨2, ![4000, 64]⟩
abbrev S_ : Shape := ⟨0, ![]⟩
abbrev S64x64 : Shape := ⟨2, ![64, 64]⟩

abbrev nBuf : Space → Nat
  | .hbm => 30
  | .vmem => 17
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x64, .f32⟩
  | .hbm, ⟨3, _⟩ => ⟨S64x256, .f32⟩
  | .hbm, ⟨4, _⟩ => ⟨S1000000x1, .i32⟩
  | .hbm, ⟨5, _⟩ => ⟨S2x64x256, .f32⟩
  | .hbm, ⟨6, _⟩ => ⟨S2x64x1, .f32⟩
  | .hbm, ⟨7, _⟩ => ⟨S_, .f32⟩
  | .hbm, ⟨8, _⟩ => ⟨S64x256, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x256, .f32⟩
  | .hbm, ⟨15, _⟩ => ⟨S64x256, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S1000000x256, .f32⟩
  | .local _ .vmem, ⟨0, _⟩ => ⟨S4000x256, .f32⟩
  | .local _ .vmem, ⟨1, _⟩ => ⟨S4000x256, .f32⟩
  | .local _ .vmem, ⟨2, _⟩ => ⟨S4000x1, .i32⟩
  | .local _ .vmem, ⟨3, _⟩ => ⟨S4000x1, .i32⟩
  | .local _ .vmem, ⟨4, _⟩ => ⟨S1x64x256, .f32⟩
  | .local _ .vmem, ⟨5, _⟩ => ⟨S1x64x256, .f32⟩
  | .local _ .vmem, ⟨6, _⟩ => ⟨S1x64x1, .f32⟩
  | .local _ .vmem, ⟨7, _⟩ => ⟨S1x64x1, .f32⟩
  | .local _ .vmem, ⟨8, _⟩ => ⟨S64x256, .f32⟩
  | .local _ .vmem, ⟨9, _⟩ => ⟨S64x1, .f32⟩
  | .local _ .vmem, ⟨10, _⟩ => ⟨S4000x256, .f32⟩
  | .local _ .vmem, ⟨11, _⟩ => ⟨S4000x256, .f32⟩
  | .local _ .vmem, ⟨12, _⟩ => ⟨S4000x1, .i32⟩
  | .local _ .vmem, ⟨13, _⟩ => ⟨S4000x1, .i32⟩
  | .local _ .vmem, ⟨14, _⟩ => ⟨S64x256, .f32⟩
  | .local _ .vmem, ⟨15, _⟩ => ⟨S4000x256, .f32⟩
  | .local _ .vmem, ⟨16, _⟩ => ⟨S4000x256, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v26 : BitVec 1 := Scalar.cmpi .eq arg1 c124_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000_S1000000x1 : S1000000.ShapeCasts S1000000x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x64_d1_w32 : S4000x64.Iotas .tc 32 [1]
  broadcasts_S4000x1_S4000x64 : S4000x1.Broadcasts S4000x64
  natLt_1_32 : 1 < 32
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S2x64x256_S64x256_d0 : S2x64x256.ReducesTo [0] S64x256
  h_S_ : 0 < S_.numel
  reducesTo_S2x64x1_S64x1_d0 : S2x64x1.ReducesTo [0] S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S64x64 : S_.BroadcastsInDim S64x64 (![] : Fin 0 → Fin S64x64.rank)
  bcast_S_S64x256 : S_.BroadcastsInDim S64x256 (![] : Fin 0 → Fin S64x256.rank)
  dot_S4000x64_S4000x256_S64x256_0_0_1_1_n_n_wf : DotDims.WF S4000x64 S4000x256 S64x256 [0] [0] [1] [1] [] []
  dot_S4000x64_S4000x1_S64x1_0_0_1_1_n_n_wf : DotDims.WF S4000x64 S4000x1 S64x1 [0] [0] [1] [1] [] []
  dot_S64x256_S256x64_S64x64_1_0_0_1_n_n_wf : DotDims.WF S64x256 S256x64 S64x64 [1] [0] [0] [1] [] []
  dot_S64x64_S64x256_S64x256_1_0_0_1_n_n_wf : DotDims.WF S64x64 S64x256 S64x256 [1] [0] [0] [1] [] []
  dot_S4000x64_S64x256_S4000x256_1_0_0_1_n_n_wf : DotDims.WF S4000x64 S64x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S1000000x256.size a
  hwx0_0 : ∀ i : grid0.Coords, EltTy.bits .f32 = 32 ∨ (Rect.block (s := S1000000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S1000000x256.size a
  hwx1_0 : ∀ i : grid1.Coords, EltTy.bits .f32 = 32 ∨ (Rect.block (s := S1000000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .i32 = 32 ∨ (Rect.block (s := S1000000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S1000000x256.size a
  hwx1_3 : ∀ i : grid1.Coords, EltTy.bits .f32 = 32 ∨ (Rect.block (s := S1000000x256) S4000x256.size (cc1_transform_3 i) (hinb1_3 i)).WholeWords (EltTy.packing .f32)

variable [Facts₀]

def dot_S4000x64_S4000x256_S64x256_0_0_1_1_n_n : DotDims S4000x64 S4000x256 S64x256 where
  lhsContracting := [0]
  rhsContracting := [0]
  lhsNonContracting := [1]
  rhsNonContracting := [1]
  lhsBatch := []
  rhsBatch := []
  wf := dot_S4000x64_S4000x256_S64x256_0_0_1_1_n_n_wf
def dot_S4000x64_S4000x1_S64x1_0_0_1_1_n_n : DotDims S4000x64 S4000x1 S64x1 where
  lhsContracting := [0]
  rhsContracting := [0]
  lhsNonContracting := [1]
  rhsNonContracting := [1]
  lhsBatch := []
  rhsBatch := []
  wf := dot_S4000x64_S4000x1_S64x1_0_0_1_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x256 : Shape := ⟨2, ![1000000, 256]⟩
abbrev S1000000 : Shape := ⟨1, ![1000000]⟩
abbrev S256x64 : Shape := ⟨2, ![256, 64]⟩
abbrev S64x256 : Shape := ⟨2, ![64, 256]⟩
abbrev S_ : Shape := ⟨0, ![]⟩
abbrev S1000000x1 : Shape := ⟨2, ![1000000, 1]⟩
abbrev S64 : Shape := ⟨1, ![64]⟩
abbrev S64x1 : Shape := ⟨2, ![64, 1]⟩
abbrev S64x64 : Shape := ⟨2, ![64, 64]⟩

abbrev nBuf : Space → Nat
  | .hbm => 43
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S256x64, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S1000000x1, .i32⟩
  | .hbm, ⟨7, _⟩ => ⟨S64x256, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S64, .f32⟩
  | .hbm, ⟨12, _⟩ => ⟨S1000000x1, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64x256, .f32⟩
  | .hbm, ⟨19, _⟩ => ⟨S64x256, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x256, .f32⟩
  | .hbm, ⟨25, _⟩ => ⟨S64x256, .f32⟩
  | .hbm, ⟨26, _⟩ => ⟨S64x256, .f32⟩
  | .hbm, ⟨27, _⟩ => ⟨S_, .f32⟩
  | .hbm, ⟨28, _⟩ => ⟨S64x256, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x256, .f32⟩
  | .hbm, ⟨42, _⟩ => ⟨S1000000x256, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S_S64x64 : S_.BroadcastsInDim S64x64 (![] : Fin 0 → Fin S64x64.rank)
  scatter_S64x256_S1000000x1_S1000000x256_1_0_0_1_wf : ScatterDims.WF S64x256 S1000000x1 S1000000x256 [1] [0] [0] 1
  scatter_S64_S1000000x1_S1000000_n_0_0_1_wf : ScatterDims.WF S64 S1000000x1 S1000000 [] [0] [0] 1
  dot_S64x256_S256x64_S64x64_1_0_0_1_n_n_wf : DotDims.WF S64x256 S256x64 S64x64 [1] [0] [0] [1] [] []
  dot_S64x64_S64x256_S64x256_1_0_0_1_n_n_wf : DotDims.WF S64x64 S64x256 S64x256 [1] [0] [0] [1] [] []
  gather_S64x256_S1000000x1_S1000000x256_1_0_n_n_0_1_1256_wf : GatherDims.WF S64x256 S1000000x1 S1000000x256 [1] [0] [] [0] [] 1 ![1, 256]

variable [Facts₀]

def scatter_S64x256_S1000000x1_S1000000x256_1_0_0_1 : ScatterDims S64x256 S1000000x1 S1000000x256 where
  updateWindowDims := [1]
  insertedWindowDims := [0]
  scatterDimsToOperandDims := [0]
  indexVectorDim := 1
  wf := scatter_S64x256_S1000000x1_S1000000x256_1_0_0_1_wf
def scatter_S64_S1000000x1_S1000000_n_0_0_1 : ScatterDims S64 S1000000x1 S1000000 where
  updateWindowDims := []
  insertedWindowDims := [0]
  scatterDimsToOperandDims := [0]
  indexVectorDim := 1
  wf := scatter_S64_S1000000x1_S1000000_n_0_0_1_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def gather_S64x256_S1000000x1_S1000000x256_1_0_n_n_0_1_1256 : GatherDims S64x256 S1000000x1 S1000000x256 where
  offsetDims := [1]
  collapsedSliceDims := [0]
  operandBatchingDims := []
  startIndicesBatchingDims := []
  startIndexMap := [0]
  indexVectorDim := 1
  sliceSizes := ![1, 256]
  wf := gather_S64x256_S1000000x1_S1000000x256_1_0_n_n_0_1_1256_wf

class Facts : Prop extends Facts₀ where

variable [Facts]
-- ==== Proof.KernelRegion0Runs.lean ====
import proofs.«421541_j94489280931_2_alg».proof.Proof.Gen.Kernel.Launch
import proofs.«421541_j94489280931_2_alg».proof.Proof.Gen.Kernel.Skeleton
import proofs.«421541_j94489280931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (`k0_h1`), from the grid coordinates (the skeleton's scalar chain
    substituted): the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 125) — decided over the grid. -/
theorem hcond0_0 : ∀ t : Fin cfg0.N, cond0_0 (grid0.coords t) ↔ t.val % 125 = 0 :=
  (by decide +kernel : ∀ t : Fin grid0.N, cond0_0 (grid0.coords t) ↔ t.val % 125 = 0)

/-- The condition of the body's second `scf.if` (`k0_h2`): the second coordinate is 124. -/
abbrev cond0_1 (i : grid0.Coords) : Prop := k0_cond2 i = 1#1
/-- It holds at the points ≡ 124 (mod 125) — decided over the grid. -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle (the configuration's table `Cfg.idle`) -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel

/-- At the points of case A output 2 is idle: the case stores nothing into it. -/
theorem idleAt0_2_A : ∀ t : Fin cfg0.N, cond0_0 (grid0.coords t) → ¬cond0_1 (grid0.coords t) → cfg0.idle 2 (grid0.coords t) = true := by decide +kernel
/-- At the points of case A output 2's block is not written back. -/
theorem noFlush0_2_A : ∀ t : Fin cfg0.N, cond0_0 (grid0.coords t) → ¬cond0_1 (grid0.coords t) → (cfg0.win 2).flush t = false := by decide +kernel
/-- At the points of case B output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output 2's block is not written back. -/
theorem noFlush0_2_B : ∀ t : Fin cfg0.N, ¬cond0_0 (grid0.coords t) → ¬cond0_1 (grid0.coords t) → (cfg0.win 2).flush t = false := by decide +kernel
/-- At the points of case C output 2 is live: the case stores into it. -/
theorem liveAt0_2_C : ∀ t : Fin cfg0.N, ¬cond0_0 (grid0.coords t) → cond0_1 (grid0.coords t) → cfg0.idle 2 (grid0.coords t) = false := by decide +kernel

/-- At the points of case A output 3 is idle: the case stores nothing into it. -/
theorem idleAt0_3_A : ∀ t : Fin cfg0.N, cond0_0 (grid0.coords t) → ¬cond0_1 (grid0.coords t) → cfg0.idle 3 (grid0.coords t) = true := by decide +kernel
/-- At the points of case A output 3's block is not written back. -/
theorem noFlush0_3_A : ∀ t : Fin cfg0.N, cond0_0 (grid0.coords t) → ¬cond0_1 (grid0.coords t) → (cfg0.win 3).flush t = false := by decide +kernel
/-- At the points of case B output 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B output 3's block is not written back. -/
theorem noFlush0_3_B : ∀ t : Fin cfg0.N, ¬cond0_0 (grid0.coords t) → ¬cond0_1 (grid0.coords t) → (cfg0.win 3).flush t = false := by decide +kernel
/-- At the points of case C output 3 is live: the case stores into it. -/
theorem liveAt0_3_C : ∀ t : Fin cfg0.N, ¬cond0_0 (grid0.coords t) → cond0_1 (grid0.coords t) → cfg0.idle 3 (grid0.coords t) = false := by decide +kernel

/-! ## The staging and scratch memrefs -/

/-- One staging buffer of output window 2, through which its contents are stated. -/
abbrev VO0_2 : View sig .tc .vmem S1x64x256 .f32 := (Memref.whole cc0_stg2_0 : Memref sig .tc .vmem S1x64x256 .f32).view
/-- One staging buffer of output window 3, through which its contents are stated. -/
abbrev VO0_3 : View sig .tc .vmem S1x64x1 .f32 := (Memref.whole cc0_stg3_0 : Memref sig .tc .vmem S1x64x1 .f32).view
/-- Each window's current staging memref at point `t`, spelled as the pipeline passes it (`bodyAt0`), and its wholeness. -/
abbrev ms0_0 (t : Fin cfg0.N) : Memref sig .tc .vmem S4000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x256 .f32 := Memref.whole cc0_scratch0
abbrev scM0_1 : Memref sig .tc .vmem S64x1 .f32 := Memref.whole cc0_scratch1
/-- The scratches the kernel carries between points, as views: what they hold is stated through these. -/
abbrev VS0_0 : View sig .tc .vmem S64x256 .f32 := scM0_0.view
abbrev VS0_1 : View sig .tc .vmem S64x1 .f32 := scM0_1.view

/-- The core's scoped buffers that are neither a staging buffer of this region nor one of its two scratches (the
    second region's seven staging buffers), each whole at some contents: the region's body never touches them. -/
def scOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant with the two scratch operands as memrefs owned at some contents, the other scoped buffers
    kept as one conjunct: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ scOther0 c) ∗ (∃ r, prngReg c r)) := by
  unfold Pipeline.ΦA; rw [scopedRest0_eq]; simp only [scM0_0, scM0_1, owns_whole, scOther0]; try rfl

end Cert.Kernel.Hand

end
-- ==== Proof.KernelRegion0RunA.lean ====
import proofs.«421541_j94489280931_2_alg».proof.Proof.KernelRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE A (the first `scf.if` taken, the second
    not: the points ≡ 0 mod 125), WITH the proof that on whole memrefs — the inputs' at their contents `x0`, `x1`, the
    two outputs' (idle here: nothing stored) at contents `xi2`, `xi3` handed back untouched, each scratch at anything —
    the body runs to the continuation holding the inputs as they were, the outputs as they were, and each scratch with
    its pieces written (`LS0`, `LS1`): the zeros first, then the loaded zeros plus the point's partial sum. -/
noncomputable def kernelRun0_A (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (xi2 : Vec F S1x64x256 .f32) (xi3 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], [], ?_, ?_, fun xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KernelRegion0RunB.lean ====
import proofs.«421541_j94489280931_2_alg».proof.Proof.KernelRegion0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same IN CASE B (neither `scf.if` taken: the points with 0 < t % 125 < 124): each scratch enters at the contents
    the point before left (`xs0`, `xs1`) and leaves with the one piece written, what it held plus the point's partial
    sum; the outputs are idle and handed back untouched. -/
noncomputable def kernelRun0_B (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (xi2 : Vec F S1x64x256 .f32) (xi3 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], [], ?_, ?_, fun xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KernelRegion0RunC.lean ====
import proofs.«421541_j94489280931_2_alg».proof.Proof.KernelRegion0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same IN CASE C (the first `scf.if` not taken, the second taken: the points ≡ 124 mod 125): each scratch
    enters at the contents the point before left (`xs0`, `xs1`) and leaves with its piece written; the outputs, stored
    whole, enter at anything and leave with the pieces `L2`, `L3` written (each scratch's final contents, reshaped). -/
noncomputable def kernelRun0_C (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KernelRegion0.lean ====
import proofs.«421541_j94489280931_2_alg».proof.Proof.KernelRegion0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region (the segment-sum kernel on its 2 x 125 grid): what its outputs and carried scratches hold

Per case of the body's two conditionals (A: the second grid coordinate is 0; C: it is 124; B: otherwise) what the
body's stores leave in the two output blocks and in the two scratch accumulators, as the run's pieces read back; then
point by point along the grid (`outsAt0`), the region invariant (`PhiS`), the proof data (`dat0`) and the body
obligation. At any `F`, and at any contents `V` of the core's buffers when the region is entered. -/

/-! ## What each case leaves in the outputs and the scratches -/

/-- Case A stores nothing into output 2 (the window is idle at the points with t % 125 = 0 and not written back there):
    no pieces, a placeholder (junk read back) that nothing consults, since at these points the window is neither
    written back nor read at the next point. -/
def out0_A_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S1x64x256 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A stores nothing into output 3 (the window is idle at the points with t % 125 = 0 and not written back there):
    no pieces, a placeholder (junk read back) that nothing consults, since at these points the window is neither
    written back nor read at the next point. -/
def out0_A_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S1x64x1 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- Case A's pieces for scratch `arg6`, which the kernel carries between points, tile it, so they cover it. -/
theorem scover0_A_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) (y : S64x256.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S64x256.size (by sl_kernel_rfl) y

/-- What case A leaves in scratch `arg6`: its pieces read back over junk. -/
def sout0_A_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S64x256 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- Case A's pieces for scratch `arg7`, which the kernel carries between points, tile it, so they cover it. -/
theorem scover0_A_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) (y : S64x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S64x1.size (by sl_kernel_rfl) y

/-- What case A leaves in scratch `arg7`: its pieces read back over junk. -/
def sout0_A_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S64x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- Case B stores nothing into output 2 (the window is idle at the points with 0 < t % 125 < 124 and not written back there):
    no pieces, a placeholder (junk read back) that nothing consults, since at these points the window is neither
    written back nor read at the next point. -/
def out0_B_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S1x64x256 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- Case B stores nothing into output 3 (the window is idle at the points with 0 < t % 125 < 124 and not written back there):
    no pieces, a placeholder (junk read back) that nothing consults, since at these points the window is neither
    written back nor read at the next point. -/
def out0_B_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S1x64x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- Case B's pieces for scratch `arg6`, which the kernel carries between points, tile it, so they cover it. -/
theorem scover0_B_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) (y : S64x256.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S64x256.size (by sl_kernel_rfl) y

/-- What case B leaves in scratch `arg6`: its pieces read back over junk. -/
def sout0_B_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S64x256 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- Case B's pieces for scratch `arg7`, which the kernel carries between points, tile it, so they cover it. -/
theorem scover0_B_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) (y : S64x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S64x1.size (by sl_kernel_rfl) y

/-- What case B leaves in scratch `arg7`: its pieces read back over junk. -/
def sout0_B_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- Case C's pieces for output 2 tile its block (one store of the whole block), so they cover it. -/
theorem cover0_C_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S1x64x256.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x64x256.size (by sl_kernel_rfl) y

/-- What case C leaves in output 2's staging buffer: its pieces read back over junk. -/
def out0_C_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S1x64x256 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- Case C's pieces for output 3 tile its block (one store of the whole block), so they cover it. -/
theorem cover0_C_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S1x64x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x64x1.size (by sl_kernel_rfl) y

/-- What case C leaves in output 3's staging buffer: its pieces read back over junk. -/
def out0_C_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S1x64x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- Case C's pieces for scratch `arg6`, which the kernel carries between points, tile it, so they cover it. -/
theorem scover0_C_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S64x256.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S64x256.size (by sl_kernel_rfl) y

/-- What case C leaves in scratch `arg6`: its pieces read back over junk. -/
def sout0_C_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S64x256 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- Case C's pieces for scratch `arg7`, which the kernel carries between points, tile it, so they cover it. -/
theorem scover0_C_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S64x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S64x1.size (by sl_kernel_rfl) y

/-- What case C leaves in scratch `arg7`: its pieces read back over junk. -/
def sout0_C_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

section

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the scratches hold after each point -/

/-- THE ACCUMULATION. What the two outputs' staging buffers and the two scratches the kernel carries between points hold
    after the body at position `n` (a tuple: output 2, output 3, scratch `arg6`, scratch `arg7`): the case the closed
    forms select at `n`, run at the point's memrefs and input blocks, each scratch entering at what this leaves at
    `n - 1` (cases B and C; case A overwrites both with zeros before reading them). An assignment of the conditions
    no point meets is no case (`False.elim`). -/
def outsAt0 (c : Dev nD) : (n : ℕ) → n < cfg0.N → Vec F S1x64x256 .f32 × Vec F S1x64x1 .f32 × Vec F S64x256 .f32 × Vec F S64x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 125 = 0 then
      if h1 : (n + 1) % 125 = 124 then
        False.elim (by have hN : n + 1 < 250 := lt_of_lt_of_eq hn (show cfg0.N = 250 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 125 = 124 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 125 = 0) (h1 : ¬t.val % 125 = 124) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left in the scratches. -/
theorem outsAt0_B (c : Dev nD) (t : Fin cfg0.N) (h0 : ¬t.val % 125 = 0) (h1 : ¬t.val % 125 = 124) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratches. -/
theorem outsAt0_C (c : Dev nD) (t : Fin cfg0.N) (h0 : ¬t.val % 125 = 0) (h1 : t.val % 125 = 124) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, with the two scratches the kernel CARRIES between points: before the first
    point the launch's (every scoped buffer that is no staging buffer at anything, the generator register at some
    state); afterwards the same with each carried scratch at what the point before left in it (`outsAt0`'s last two
    components), the other scoped buffers at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ scOther0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratches at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ scOther0 c) ∗ (∃ r, prngReg c r)) := rfl

/-- Before a point that is not the first: the carried scratches at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ scOther0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and each output's at `outsAt0`'s component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the
    point is in (`by_cases`); the invariant hands the body the two carried scratches at what the point before left
    (`PhiS_pos`; at anything at the grid's first point, `PhiS_zero`), the other scoped buffers and the generator
    register at some state, and takes the scratches back at this point's contents (`PhiS_succ`, their pieces cover
    them); an output idle at the point is handed back as it was held, one stored at the point at its pieces read
    back (they cover it); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 250 := lt_of_lt_of_eq t.isLt (show cfg0.N = 250 from N_0)
  by_cases h0 : t.val % 125 = 0
  · by_cases h1 : t.val % 125 = 124
    · exfalso; omega
    · -- case A: both scratches zeroed, then accumulated into; the outputs idle
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · by_cases h1 : t.val % 125 = 124
    · -- case C: accumulate, then copy both scratches into the outputs
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · -- case B: accumulate; the outputs idle
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratches' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 250 := N_0; omega)

end

end Cert.Kernel.Hand

end
-- ==== Proof.KernelRegion1.lean ====
import proofs.«421541_j94489280931_2_alg».proof.Proof.Gen.Kernel.Launch
import proofs.«421541_j94489280931_2_alg».proof.Proof.Gen.Kernel.Skeleton
import proofs.«421541_j94489280931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered: the parameter the region's half is stated at
variable (V : (c : Dev nD) → (b : Ref sig .tc) → Buf (Elt F) ((c : Thread nD τ).loc b))

/-! # Region 1: the gather-multiply kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x256 := Rect.unit (s := S4000x256) ![0, 0] S4000x256.size inb_S4000x256_S4000x256_0_0
abbrev r1_1 : Rect S4000x1 := Rect.unit (s := S4000x1) ![0, 0] S4000x1.size inb_S4000x1_S4000x1_0_0
abbrev r1_2 : Rect S64x256 := Rect.unit (s := S64x256) ![0, 0] S64x256.size inb_S64x256_S64x256_0_0

/-! ## What the body leaves in the output window's buffer -/

/-- Window 3's staging buffer after the body, from the input windows' blocks: its one store as a piece
    (the payload is the product of the x block with the gathered gate rows). -/
def out1_3 (x0 : Vec F S4000x256 .f32) (x1 : Vec F S4000x1 .i32) (x2 : Vec F S64x256 .f32) : Vec F S4000x256 .f32 :=
  View.canon [⟨r1_0, k1_pay1 (View.ld x0 r1_0) (View.ld x1 r1_1) (View.ld x2 r1_2)⟩]

/-- The store is of the whole buffer, so it covers it. -/
theorem cover1_3 (p0 : Vec F S4000x256 .f32) (y : S4000x256.Idx) :
    ∃ pc ∈ ([⟨r1_0, p0⟩] : List (View.Piece (Elt F) S4000x256 .f32)), y ∈ pc.1.set :=
  View.cover_of_tiled [⟨r1_0, p0⟩] S4000x256.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    loads the output buffer once before storing into it; what it reads there is not used. -/
theorem sound_kernel1 (c : Dev nD) (E : Set ℕ) (i : grid1.Coords)
    (arg1 : Memref sig .tc .vmem S4000x256 .f32) (harg1 : arg1.IsWhole) (arg2 : Memref sig .tc .vmem S4000x1 .i32) (harg2 : arg2.IsWhole)
    (arg3 : Memref sig .tc .vmem S64x256 .f32) (harg3 : arg3.IsWhole) (arg4 : Memref sig .tc .vmem S4000x256 .f32) (harg4 : arg4.IsWhole)
    (x0 : Vec F S4000x256 .f32) (x1 : Vec F S4000x1 .i32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KernelRun.lean ====
import proofs.«421541_j94489280931_2_alg».proof.Proof.Gen.Kernel.Launch
import proofs.«421541_j94489280931_2_alg».proof.Proof.Gen.Kernel.Skeleton
import proofs.«421541_j94489280931_2_alg».proof.Proof.Gen.Kernel.Points
import proofs.«421541_j94489280931_2_alg».proof.Proof.Gen.Kernel.Regions
import proofs.«421541_j94489280931_2_alg».proof.Proof.KernelRegion0
import proofs.«421541_j94489280931_2_alg».proof.Proof.KernelRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its six segments from the launch to the return

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2` (region 1's entry). -/
abbrev W5 : Dev nD → Valuation τ sig (Elt F) := fun c => StableHlo.after hostOps1_2 (W4 m ρ c)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat1 (V5 m ρ) c).arrAt_in 0 rfl _).trans (A_eq1 (V5 m ρ) c 0))
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The result's buffer at the end holds what region 1's pipeline leaves in its output array. -/
theorem W6_result (c : Dev nD) : W6 m ρ c (Proc.devRef .tc main_v17) = (dat1 (V5 m ρ) c).arrAt 3 cfg1.N :=
  W6_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays
    split out of the unscoped buffers and put back at the exit contents; the generator register and the scoped rest into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays
    split out of the unscoped buffers and put back at the exit contents; the generator register and the scoped rest into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The launch: from any memory with zero counters, every weakly fair execution of @main on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run_all m ρ)

/-- The result's value: the result array ends at what region 1's pipeline leaves in its output array, the
    arguments as launched. -/
theorem run_value : θ_run defs (onTc (τ := τ) (main (F := F))) ⟨m, fun _ => 0, ρ⟩ (fun r => ∀ c : Dev nD,
      r.2.mem ((c.tc : Thread nD τ).loc main_v17) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v17 (by decide))).trans (W6_result m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run_all m ρ)

end Cert.Kernel.Hand

end
-- ==== Proof.KernelIdealRegion0Runs.lean ====
import proofs.«421541_j94489280931_2_alg».proof.Proof.Gen.KernelIdeal.Launch
import proofs.«421541_j94489280931_2_alg».proof.Proof.Gen.KernelIdeal.Skeleton
import proofs.«421541_j94489280931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (`k0_h1`), from the grid coordinates (the skeleton's scalar chain
    substituted): the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 125) — decided over the grid. -/
theorem hcond0_0 : ∀ t : Fin cfg0.N, cond0_0 (grid0.coords t) ↔ t.val % 125 = 0 :=
  (by decide +kernel : ∀ t : Fin grid0.N, cond0_0 (grid0.coords t) ↔ t.val % 125 = 0)

/-- The condition of the body's second `scf.if` (`k0_h2`): the second coordinate is 124. -/
abbrev cond0_1 (i : grid0.Coords) : Prop := k0_cond2 i = 1#1
/-- It holds at the points ≡ 124 (mod 125) — decided over the grid. -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle (the configuration's table `Cfg.idle`) -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel

/-- At the points of case A output 2 is idle: the case stores nothing into it. -/
theorem idleAt0_2_A : ∀ t : Fin cfg0.N, cond0_0 (grid0.coords t) → ¬cond0_1 (grid0.coords t) → cfg0.idle 2 (grid0.coords t) = true := by decide +kernel
/-- At the points of case A output 2's block is not written back. -/
theorem noFlush0_2_A : ∀ t : Fin cfg0.N, cond0_0 (grid0.coords t) → ¬cond0_1 (grid0.coords t) → (cfg0.win 2).flush t = false := by decide +kernel
/-- At the points of case B output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B output 2's block is not written back. -/
theorem noFlush0_2_B : ∀ t : Fin cfg0.N, ¬cond0_0 (grid0.coords t) → ¬cond0_1 (grid0.coords t) → (cfg0.win 2).flush t = false := by decide +kernel
/-- At the points of case C output 2 is live: the case stores into it. -/
theorem liveAt0_2_C : ∀ t : Fin cfg0.N, ¬cond0_0 (grid0.coords t) → cond0_1 (grid0.coords t) → cfg0.idle 2 (grid0.coords t) = false := by decide +kernel

/-- At the points of case A output 3 is idle: the case stores nothing into it. -/
theorem idleAt0_3_A : ∀ t : Fin cfg0.N, cond0_0 (grid0.coords t) → ¬cond0_1 (grid0.coords t) → cfg0.idle 3 (grid0.coords t) = true := by decide +kernel
/-- At the points of case A output 3's block is not written back. -/
theorem noFlush0_3_A : ∀ t : Fin cfg0.N, cond0_0 (grid0.coords t) → ¬cond0_1 (grid0.coords t) → (cfg0.win 3).flush t = false := by decide +kernel
/-- At the points of case B output 3 is idle: the case stores nothing into it. -/
theorem idleAt0_3_B : ∀ t : Fin cfg0.N, ¬cond0_0 (grid0.coords t) → ¬cond0_1 (grid0.coords t) → cfg0.idle 3 (grid0.coords t) = true := by decide +kernel
/-- At the points of case B output 3's block is not written back. -/
theorem noFlush0_3_B : ∀ t : Fin cfg0.N, ¬cond0_0 (grid0.coords t) → ¬cond0_1 (grid0.coords t) → (cfg0.win 3).flush t = false := by decide +kernel
/-- At the points of case C output 3 is live: the case stores into it. -/
theorem liveAt0_3_C : ∀ t : Fin cfg0.N, ¬cond0_0 (grid0.coords t) → cond0_1 (grid0.coords t) → cfg0.idle 3 (grid0.coords t) = false := by decide +kernel

/-! ## The staging and scratch memrefs -/

/-- One staging buffer of output window 2, through which its contents are stated. -/
abbrev VO0_2 : View sig .tc .vmem S1x64x256 .f32 := (Memref.whole cc0_stg2_0 : Memref sig .tc .vmem S1x64x256 .f32).view
/-- One staging buffer of output window 3, through which its contents are stated. -/
abbrev VO0_3 : View sig .tc .vmem S1x64x1 .f32 := (Memref.whole cc0_stg3_0 : Memref sig .tc .vmem S1x64x1 .f32).view
/-- Each window's current staging memref at point `t`, spelled as the pipeline passes it (`bodyAt0`), and its wholeness. -/
abbrev ms0_0 (t : Fin cfg0.N) : Memref sig .tc .vmem S4000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x256 .f32 := Memref.whole cc0_scratch0
abbrev scM0_1 : Memref sig .tc .vmem S64x1 .f32 := Memref.whole cc0_scratch1
/-- The scratches the kernel carries between points, as views: what they hold is stated through these. -/
abbrev VS0_0 : View sig .tc .vmem S64x256 .f32 := scM0_0.view
abbrev VS0_1 : View sig .tc .vmem S64x1 .f32 := scM0_1.view

/-- The core's scoped buffers that are neither a staging buffer of this region nor one of its two scratches (the
    second region's seven staging buffers), each whole at some contents: the region's body never touches them. -/
def scOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant with the two scratch operands as memrefs owned at some contents, the other scoped buffers
    kept as one conjunct: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ scOther0 c) ∗ (∃ r, prngReg c r)) := by
  unfold Pipeline.ΦA; rw [scopedRest0_eq]; simp only [scM0_0, scM0_1, owns_whole, scOther0]; try rfl

end Cert.KernelIdeal.Hand

end
-- ==== Proof.KernelIdealRegion0RunA.lean ====
import proofs.«421541_j94489280931_2_alg».proof.Proof.KernelIdealRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each buffer, as pieces (last first), IN CASE A (the first `scf.if` taken, the second
    not: the points ≡ 0 mod 125), WITH the proof that on whole memrefs — the inputs' at their contents `x0`, `x1`, the
    two outputs' (idle here: nothing stored) at contents `xi2`, `xi3` handed back untouched, each scratch at anything —
    the body runs to the continuation holding the inputs as they were, the outputs as they were, and each scratch with
    its pieces written (`LS0`, `LS1`): the zeros first, then the loaded zeros plus the point's partial sum. -/
noncomputable def kernelRun0_A (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (xi2 : Vec F S1x64x256 .f32) (xi3 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], [], ?_, ?_, fun xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KernelIdealRegion0RunB.lean ====
import proofs.«421541_j94489280931_2_alg».proof.Proof.KernelIdealRegion0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same IN CASE B (neither `scf.if` taken: the points with 0 < t % 125 < 124): each scratch enters at the contents
    the point before left (`xs0`, `xs1`) and leaves with the one piece written, what it held plus the point's partial
    sum; the outputs are idle and handed back untouched. -/
noncomputable def kernelRun0_B (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (xi2 : Vec F S1x64x256 .f32) (xi3 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], [], ?_, ?_, fun xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KernelIdealRegion0RunC.lean ====
import proofs.«421541_j94489280931_2_alg».proof.Proof.KernelIdealRegion0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same IN CASE C (the first `scf.if` not taken, the second taken: the points ≡ 124 mod 125): each scratch
    enters at the contents the point before left (`xs0`, `xs1`) and leaves with its piece written; the outputs, stored
    whole, enter at anything and leave with the pieces `L2`, `L3` written (each scratch's final contents, reshaped). -/
noncomputable def kernelRun0_C (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    Σ' (L2 : List (View.Piece (Elt F) S1x64x256 .f32)) (L3 : List (View.Piece (Elt F) S1x64x1 .f32)) (LS0 : List (View.Piece (Elt F) S64x256 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KernelIdealRegion0.lean ====
import proofs.«421541_j94489280931_2_alg».proof.Proof.KernelIdealRegion0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region (the segment-sum kernel on its 2 x 125 grid): what its outputs and carried scratches hold

Per case of the body's two conditionals (A: the second grid coordinate is 0; C: it is 124; B: otherwise) what the
body's stores leave in the two output blocks and in the two scratch accumulators, as the run's pieces read back; then
point by point along the grid (`outsAt0`), the region invariant (`PhiS`), the proof data (`dat0`) and the body
obligation. At any `F`, and at any contents `V` of the core's buffers when the region is entered. -/

/-! ## What each case leaves in the outputs and the scratches -/

/-- Case A stores nothing into output 2 (the window is idle at the points with t % 125 = 0 and not written back there):
    no pieces, a placeholder (junk read back) that nothing consults, since at these points the window is neither
    written back nor read at the next point. -/
def out0_A_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S1x64x256 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A stores nothing into output 3 (the window is idle at the points with t % 125 = 0 and not written back there):
    no pieces, a placeholder (junk read back) that nothing consults, since at these points the window is neither
    written back nor read at the next point. -/
def out0_A_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S1x64x1 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- Case A's pieces for scratch `arg6`, which the kernel carries between points, tile it, so they cover it. -/
theorem scover0_A_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) (y : S64x256.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S64x256.size (by sl_kernel_rfl) y

/-- What case A leaves in scratch `arg6`: its pieces read back over junk. -/
def sout0_A_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S64x256 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- Case A's pieces for scratch `arg7`, which the kernel carries between points, tile it, so they cover it. -/
theorem scover0_A_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) (y : S64x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S64x1.size (by sl_kernel_rfl) y

/-- What case A leaves in scratch `arg7`: its pieces read back over junk. -/
def sout0_A_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) : Vec F S64x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- Case B stores nothing into output 2 (the window is idle at the points with 0 < t % 125 < 124 and not written back there):
    no pieces, a placeholder (junk read back) that nothing consults, since at these points the window is neither
    written back nor read at the next point. -/
def out0_B_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S1x64x256 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- Case B stores nothing into output 3 (the window is idle at the points with 0 < t % 125 < 124 and not written back there):
    no pieces, a placeholder (junk read back) that nothing consults, since at these points the window is neither
    written back nor read at the next point. -/
def out0_B_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S1x64x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- Case B's pieces for scratch `arg6`, which the kernel carries between points, tile it, so they cover it. -/
theorem scover0_B_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) (y : S64x256.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S64x256.size (by sl_kernel_rfl) y

/-- What case B leaves in scratch `arg6`: its pieces read back over junk. -/
def sout0_B_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S64x256 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- Case B's pieces for scratch `arg7`, which the kernel carries between points, tile it, so they cover it. -/
theorem scover0_B_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) (y : S64x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S64x1.size (by sl_kernel_rfl) y

/-- What case B leaves in scratch `arg7`: its pieces read back over junk. -/
def sout0_B_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- Case C's pieces for output 2 tile its block (one store of the whole block), so they cover it. -/
theorem cover0_C_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S1x64x256.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x64x256.size (by sl_kernel_rfl) y

/-- What case C leaves in output 2's staging buffer: its pieces read back over junk. -/
def out0_C_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S1x64x256 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- Case C's pieces for output 3 tile its block (one store of the whole block), so they cover it. -/
theorem cover0_C_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S1x64x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x64x1.size (by sl_kernel_rfl) y

/-- What case C leaves in output 3's staging buffer: its pieces read back over junk. -/
def out0_C_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S1x64x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- Case C's pieces for scratch `arg6`, which the kernel carries between points, tile it, so they cover it. -/
theorem scover0_C_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S64x256.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S64x256.size (by sl_kernel_rfl) y

/-- What case C leaves in scratch `arg6`: its pieces read back over junk. -/
def sout0_C_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S64x256 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- Case C's pieces for scratch `arg7`, which the kernel carries between points, tile it, so they cover it. -/
theorem scover0_C_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) (y : S64x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S64x1.size (by sl_kernel_rfl) y

/-- What case C leaves in scratch `arg7`: its pieces read back over junk. -/
def sout0_C_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

section

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the scratches hold after each point -/

/-- THE ACCUMULATION. What the two outputs' staging buffers and the two scratches the kernel carries between points hold
    after the body at position `n` (a tuple: output 2, output 3, scratch `arg6`, scratch `arg7`): the case the closed
    forms select at `n`, run at the point's memrefs and input blocks, each scratch entering at what this leaves at
    `n - 1` (cases B and C; case A overwrites both with zeros before reading them). An assignment of the conditions
    no point meets is no case (`False.elim`). -/
def outsAt0 (c : Dev nD) : (n : ℕ) → n < cfg0.N → Vec F S1x64x256 .f32 × Vec F S1x64x1 .f32 × Vec F S64x256 .f32 × Vec F S64x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 125 = 0 then
      if h1 : (n + 1) % 125 = 124 then
        False.elim (by have hN : n + 1 < 250 := lt_of_lt_of_eq hn (show cfg0.N = 250 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 125 = 124 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 125 = 0) (h1 : ¬t.val % 125 = 124) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left in the scratches. -/
theorem outsAt0_B (c : Dev nD) (t : Fin cfg0.N) (h0 : ¬t.val % 125 = 0) (h1 : ¬t.val % 125 = 124) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratches. -/
theorem outsAt0_C (c : Dev nD) (t : Fin cfg0.N) (h0 : ¬t.val % 125 = 0) (h1 : t.val % 125 = 124) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, with the two scratches the kernel CARRIES between points: before the first
    point the launch's (every scoped buffer that is no staging buffer at anything, the generator register at some
    state); afterwards the same with each carried scratch at what the point before left in it (`outsAt0`'s last two
    components), the other scoped buffers at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ scOther0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratches at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ scOther0 c) ∗ (∃ r, prngReg c r)) := rfl

/-- Before a point that is not the first: the carried scratches at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ scOther0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and each output's at `outsAt0`'s component; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the
    point is in (`by_cases`); the invariant hands the body the two carried scratches at what the point before left
    (`PhiS_pos`; at anything at the grid's first point, `PhiS_zero`), the other scoped buffers and the generator
    register at some state, and takes the scratches back at this point's contents (`PhiS_succ`, their pieces cover
    them); an output idle at the point is handed back as it was held, one stored at the point at its pieces read
    back (they cover it); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 250 := lt_of_lt_of_eq t.isLt (show cfg0.N = 250 from N_0)
  by_cases h0 : t.val % 125 = 0
  · by_cases h1 : t.val % 125 = 124
    · exfalso; omega
    · -- case A: both scratches zeroed, then accumulated into; the outputs idle
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3
  · by_cases h1 : t.val % 125 = 124
    · -- case C: accumulate, then copy both scratches into the outputs
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_2 out0_C_3 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · -- case B: accumulate; the outputs idle
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _)
            iexact HR
          iexact Hg
        isplitl [Ho]; · iexact Ho
        isplitl [H0]; · iexact H0
        isplitl [H1]; · iexact H1
        isplitl [H2]; · iexists _; iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratches' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 250 := N_0; omega)

end

end Cert.KernelIdeal.Hand

end
-- ==== Proof.KernelIdealRegion1.lean ====
import proofs.«421541_j94489280931_2_alg».proof.Proof.Gen.KernelIdeal.Launch
import proofs.«421541_j94489280931_2_alg».proof.Proof.Gen.KernelIdeal.Skeleton
import proofs.«421541_j94489280931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered: the parameter the region's half is stated at
variable (V : (c : Dev nD) → (b : Ref sig .tc) → Buf (Elt F) ((c : Thread nD τ).loc b))

/-! # Region 1: the gather-multiply kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x256 := Rect.unit (s := S4000x256) ![0, 0] S4000x256.size inb_S4000x256_S4000x256_0_0
abbrev r1_1 : Rect S4000x1 := Rect.unit (s := S4000x1) ![0, 0] S4000x1.size inb_S4000x1_S4000x1_0_0
abbrev r1_2 : Rect S64x256 := Rect.unit (s := S64x256) ![0, 0] S64x256.size inb_S64x256_S64x256_0_0

/-! ## What the body leaves in the output window's buffer -/

/-- Window 3's staging buffer after the body, from the input windows' blocks: its one store as a piece
    (the payload is the product of the x block with the gathered gate rows). -/
def out1_3 (x0 : Vec F S4000x256 .f32) (x1 : Vec F S4000x1 .i32) (x2 : Vec F S64x256 .f32) : Vec F S4000x256 .f32 :=
  View.canon [⟨r1_0, k1_pay1 (View.ld x0 r1_0) (View.ld x1 r1_1) (View.ld x2 r1_2)⟩]

/-- The store is of the whole buffer, so it covers it. -/
theorem cover1_3 (p0 : Vec F S4000x256 .f32) (y : S4000x256.Idx) :
    ∃ pc ∈ ([⟨r1_0, p0⟩] : List (View.Piece (Elt F) S4000x256 .f32)), y ∈ pc.1.set :=
  View.cover_of_tiled [⟨r1_0, p0⟩] S4000x256.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    loads the output buffer once before storing into it; what it reads there is not used. -/
theorem sound_kernel1 (c : Dev nD) (E : Set ℕ) (i : grid1.Coords)
    (arg1 : Memref sig .tc .vmem S4000x256 .f32) (harg1 : arg1.IsWhole) (arg2 : Memref sig .tc .vmem S4000x1 .i32) (harg2 : arg2.IsWhole)
    (arg3 : Memref sig .tc .vmem S64x256 .f32) (harg3 : arg3.IsWhole) (arg4 : Memref sig .tc .vmem S4000x256 .f32) (harg4 : arg4.IsWhole)
    (x0 : Vec F S4000x256 .f32) (x1 : Vec F S4000x1 .i32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelIdealRun.lean ====
import proofs.«421541_j94489280931_2_alg».proof.Proof.Gen.KernelIdeal.Launch
import proofs.«421541_j94489280931_2_alg».proof.Proof.Gen.KernelIdeal.Skeleton
import proofs.«421541_j94489280931_2_alg».proof.Proof.Gen.KernelIdeal.Points
import proofs.«421541_j94489280931_2_alg».proof.Proof.Gen.KernelIdeal.Regions
import proofs.«421541_j94489280931_2_alg».proof.Proof.KernelIdealRegion0
import proofs.«421541_j94489280931_2_alg».proof.Proof.KernelIdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its six segments from the launch to the return

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2` (region 1's entry). -/
abbrev W5 : Dev nD → Valuation τ sig (Elt F) := fun c => StableHlo.after hostOps1_2 (W4 m ρ c)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host operation and no region writes one (a region reads it through an
    input window or bypasses it), so the fold at an argument's buffer walks back to the launch memory -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_arr m ρ c 0).trans (((dat1 (V5 m ρ) c).arrAt_in 0 rfl _).trans (A_eq1 (V5 m ρ) c 0))
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The result's buffer at the end holds what region 1's pipeline leaves in its output array. -/
theorem W6_result (c : Dev nD) : W6 m ρ c (Proc.devRef .tc main_v17) = (dat1 (V5 m ρ) c).arrAt 3 cfg1.N :=
  W6_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays
    split out of the unscoped buffers and put back at the exit contents; the generator register and the scoped rest into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays
    split out of the unscoped buffers and put back at the exit contents; the generator register and the scoped rest into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- The launch: from any memory with zero counters, every weakly fair execution of @main on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run_all m ρ)

/-- The result's value: the result array ends at what region 1's pipeline leaves in its output array, the
    arguments as launched. -/
theorem run_value : θ_run defs (onTc (τ := τ) (main (F := F))) ⟨m, fun _ => 0, ρ⟩ (fun r => ∀ c : Dev nD,
      r.2.mem ((c.tc : Thread nD τ).loc main_v17) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v17 (by decide))).trans (W6_result m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run_all m ρ)

end Cert.KernelIdeal.Hand

end
-- ==== Proof.Spec.lean ====
import Idealize.ShloMosaic.PureOps.Ideal
import Idealize.ShloMosaic.Lib.ValueIdx
import Idealize.ShloMosaic.Lib.ValueIdxRank1
import Mathlib.Algebra.BigOperators.Group.Finset.Basic
import Mathlib.Algebra.BigOperators.Fin

/-!
# The segment mean and the gated rows, as functions of the argument arrays

`x` has 1,000,000 rows of 256 numbers and every row carries a segment id, a 32-bit word. For a segment `s < 64` and a
column `k`, `segSum x b s k` adds the entries `x t k` of the rows `t` whose id is the word of `s`, and `segCnt u b s` adds
one unit `u` per such row. The kernel walks the rows in 2 × 125 tiles of 4000 rows — tile `(p, i)` holds the rows
`(p · 125 + i) · 4000 + r` — and adds up one partial sum per tile; regrouping the rows by tile changes nothing, sums of
extended reals being commutative and associative (`segSum_eq_tiles`, `segCnt_eq_tiles`).
-/

noncomputable section

open scoped BigOperators
open Idealize.ShloMosaic Idealize.ShloMosaic.ValueIdx

namespace Cert.Spec

/-- The rows' shape, the ids' shape. -/
abbrev SX : Shape := ⟨2, ![1000000, 256]⟩
abbrev SB : Shape := ⟨1, ![1000000]⟩

/-- The word of segment `s`. -/
abbrev segWord (s : Fin 64) : BitVec 32 := BitVec.ofNat 32 s.val

/-- The sum over the rows of segment `s` of column `k`. -/
def segSum (x : SX.Idx → EReal) (b : SB.Idx → BitVec 32) (s : Fin 64) (k : Fin 256) : EReal :=
  ∑ t ∈ Finset.univ.filter (fun t : Fin 1000000 => b (ix1 t) = segWord s), x (ix2 t k)

/-- One unit `u` per row of segment `s`. -/
def segCnt (u : EReal) (b : SB.Idx → BitVec 32) (s : Fin 64) : EReal :=
  ∑ _t ∈ Finset.univ.filter (fun t : Fin 1000000 => b (ix1 t) = segWord s), u

/-- Row `r` of tile `(p, i)`. -/
def rowOf (p : Fin 2) (i : Fin 125) (r : Fin 4000) : Fin 1000000 :=
  ⟨(p.val * 125 + i.val) * 4000 + r.val, by have := p.isLt; have := i.isLt; have := r.isLt; omega⟩

/-- Tile `(p, i)`'s share of `segSum`. -/
def tileSum (x : SX.Idx → EReal) (b : SB.Idx → BitVec 32) (p : Fin 2) (i : Fin 125) (s : Fin 64) (k : Fin 256) : EReal :=
  ∑ r ∈ Finset.univ.filter (fun r : Fin 4000 => b (ix1 (rowOf p i r)) = segWord s), x (ix2 (rowOf p i r) k)

/-- Tile `(p, i)`'s share of `segCnt`. -/
def tileCnt (u : EReal) (b : SB.Idx → BitVec 32) (p : Fin 2) (i : Fin 125) (s : Fin 64) : EReal :=
  ∑ _r ∈ Finset.univ.filter (fun r : Fin 4000 => b (ix1 (rowOf p i r)) = segWord s), u

/-- Every row lies in exactly one tile. -/
theorem rowOf_bijective : Function.Bijective (fun q : Fin 2 × Fin 125 × Fin 4000 => rowOf q.1 q.2.1 q.2.2) := by
  constructor
  · rintro ⟨p, i, r⟩ ⟨p', i', r'⟩ h
    simp only [rowOf, Fin.mk.injEq] at h
    have hp := p.isLt; have hi := i.isLt; have hr := r.isLt
    have hp' := p'.isLt; have hi' := i'.isLt; have hr' := r'.isLt
    have h1 : p.val = p'.val := by omega
    have h2 : i.val = i'.val := by omega
    have h3 : r.val = r'.val := by omega
    exact Prod.ext (Fin.ext h1) (Prod.ext (Fin.ext h2) (Fin.ext h3))
  · intro t
    have ht := t.isLt
    refine ⟨(⟨t.val / 500000, by omega⟩, ⟨t.val / 4000 % 125, by omega⟩, ⟨t.val % 4000, by omega⟩), ?_⟩
    apply Fin.ext
    simp only [rowOf]
    omega

/-- The rows regrouped by tile. -/
theorem segSum_eq_tiles (x : SX.Idx → EReal) (b : SB.Idx → BitVec 32) (s : Fin 64) (k : Fin 256) :
    segSum x b s k = ∑ p : Fin 2, ∑ i : Fin 125, tileSum x b p i s k := by
  unfold segSum tileSum
  rw [Finset.sum_filter, ← (Equiv.ofBijective _ rowOf_bijective).sum_comp, Fintype.sum_prod_type]
  refine Finset.sum_congr rfl fun p _ => ?_
  rw [Fintype.sum_prod_type]
  refine Finset.sum_congr rfl fun i _ => ?_
  rw [Finset.sum_filter]
  simp only [Equiv.ofBijective_apply]

theorem segCnt_eq_tiles (u : EReal) (b : SB.Idx → BitVec 32) (s : Fin 64) :
    segCnt u b s = ∑ p : Fin 2, ∑ i : Fin 125, tileCnt u b p i s := by
  unfold segCnt tileCnt
  rw [Finset.sum_filter, ← (Equiv.ofBijective _ rowOf_bijective).sum_comp, Fintype.sum_prod_type]
  refine Finset.sum_congr rfl fun p _ => ?_
  rw [Fintype.sum_prod_type]
  refine Finset.sum_congr rfl fun i _ => ?_
  rw [Finset.sum_filter]
  simp only [Equiv.ofBijective_apply]

/-- A sum of products with a 0/1 selector is the sum over the selected indices (in the extended reals `0 · y = 0` for every `y`). -/
theorem sum_ite_mul_eq_filter {ι : Type} [Fintype ι] (p : ι → Prop) [DecidablePred p] (f : ι → EReal) :
    (∑ r : ι, (if p r then (1 : EReal) else 0) * f r) = ∑ r ∈ Finset.univ.filter p, f r := by
  rw [Finset.sum_filter]
  refine Finset.sum_congr rfl fun r _ => ?_
  by_cases h : p r
  · rw [if_pos h, if_pos h, one_mul]
  · rw [if_neg h, if_neg h, zero_mul]

/-- A 0/1 selector over the 64 segments picks the entry of the row's own segment. -/
theorem sum_onehot_row (g : Fin 64 → EReal) (w : BitVec 32) (s : Fin 64) (hw : w = segWord s) :
    (∑ q : Fin 64, (if w = segWord q then (1 : EReal) else 0) * g q) = g s := by
  subst hw
  rw [Finset.sum_eq_single s]
  · rw [if_pos rfl, one_mul]
  · intro q _ hq
    have hne : ¬ segWord s = segWord q := by
      intro h
      apply hq
      have h' := congrArg BitVec.toNat h
      have hs := s.isLt
      have hq' := q.isLt
      simp only [segWord, BitVec.toNat_ofNat] at h'
      rw [Nat.mod_eq_of_lt (by omega), Nat.mod_eq_of_lt (by omega)] at h'
      exact Fin.ext h'.symm
    rw [if_neg hne, zero_mul]
  · intro h
    exact absurd (Finset.mem_univ s) h

/-- The sum up to and including tile `n` of a core's tiles: what the running accumulator holds after tile `n`. -/
def prefixSum (f : Fin 125 → EReal) (n : ℕ) : EReal := ∑ i ∈ Finset.univ.filter (fun i : Fin 125 => i.val ≤ n), f i

theorem prefixSum_zero (f : Fin 125 → EReal) : prefixSum f 0 = f 0 := by
  unfold prefixSum
  have hset : Finset.univ.filter (fun i : Fin 125 => i.val ≤ 0) = {0} := by
    ext i
    simp only [Finset.mem_filter, Finset.mem_univ, true_and, Finset.mem_singleton, Fin.ext_iff, Fin.val_zero]
    omega
  rw [hset, Finset.sum_singleton]

theorem prefixSum_succ (f : Fin 125 → EReal) (n : ℕ) (hn : n + 1 < 125) :
    prefixSum f (n + 1) = prefixSum f n + f ⟨n + 1, hn⟩ := by
  unfold prefixSum
  have hset : Finset.univ.filter (fun i : Fin 125 => i.val ≤ n + 1)
      = insert (⟨n + 1, hn⟩ : Fin 125) (Finset.univ.filter (fun i : Fin 125 => i.val ≤ n)) := by
    ext i
    simp only [Finset.mem_filter, Finset.mem_univ, true_and, Finset.mem_insert, Fin.ext_iff]
    omega
  have hnot : (⟨n + 1, hn⟩ : Fin 125) ∉ Finset.univ.filter (fun i : Fin 125 => i.val ≤ n) := by
    simp only [Finset.mem_filter, Finset.mem_univ, true_and]
    omega
  rw [hset, Finset.sum_insert hnot, add_comm]

theorem prefixSum_last (f : Fin 125 → EReal) : prefixSum f 124 = ∑ i : Fin 125, f i := by
  unfold prefixSum
  rw [Finset.filter_true_of_mem]
  intro i _
  have := i.isLt
  omega

/-- The segment mean: the segment's sum over its row count, the count taken as at least one. -/
def zmean (x : SX.Idx → EReal) (b : SB.Idx → BitVec 32) : (⟨2, ![64, 256]⟩ : Shape).Idx → EReal :=
  fun j => Ideal.div (segSum x b (j 0) (j 1)) (max (segCnt 1 b (j 0)) 1)

/-- The row of the 64-row gate a start word selects: the word read signed and clamped into `[0, 63]`. -/
def segOf (w : BitVec 32) : Fin 64 := ⟨min w.toInt.toNat 63, by omega⟩

theorem segOf_segWord (s : Fin 64) : segOf (segWord s) = s := by
  apply Fin.ext
  have hs := s.isLt
  have h : (segWord s).toInt = (s.val : Int) := by
    simp only [segWord]
    rw [BitVec.toInt_eq_toNat_cond, BitVec.toNat_ofNat, Nat.mod_eq_of_lt (by omega)]
    rw [if_pos (by omega)]
  simp only [segOf, h, Int.toNat_natCast]
  omega

/-- The word of a segment is not negative, read signed. -/
theorem segWord_not_slt (s : Fin 64) : ¬ (segWord s).slt 0#32 = true := by
  have hs := s.isLt
  have h : (segWord s).toInt = (s.val : Int) := by
    simp only [segWord]
    rw [BitVec.toInt_eq_toNat_cond, BitVec.toNat_ofNat, Nat.mod_eq_of_lt (by omega)]
    rw [if_pos (by omega)]
  have h0 : (0#32).toInt = 0 := by decide
  rw [BitVec.slt, h, h0, decide_eq_true_eq]
  omega

/-- Every row's id is the word of a segment: the ids' stated range `0 ≤ id < 64`. -/
def InRange (b : SB.Idx → BitVec 32) : Prop := ∀ t : Fin 1000000, ∃ s : Fin 64, b (ix1 t) = segWord s

/-- The gated rows: each entry times its own segment's gate entry. -/
def gated (x : SX.Idx → EReal) (b : SB.Idx → BitVec 32) (g : (⟨2, ![64, 256]⟩ : Shape).Idx → EReal) : SX.Idx → EReal :=
  fun j => x j * g (ix2 (segOf (b (ix1 (j 0)))) (j 1))

end Cert.Spec

end
-- ==== Proof.KernelIdealRegion1Value.lean ====
import proofs.«421541_j94489280931_2_alg».proof.Proof.KernelIdealRegion1
import proofs.«421541_j94489280931_2_alg».proof.Proof.Spec
import Idealize.ShloMosaic.Lib.Pipeline.Value
import Idealize.ShloMosaic.Lib.ValueIdx
import Idealize.ShloMosaic.PureOps.Ideal.Laws

/-!
# The value of region 1: the gathered product, entry by entry

Region 1 walks the 1,000,000 rows in 250 blocks of 4000. On one block it builds the 4000 × 64 selector matrix — entry
(`p`, `k`) is 1 when row `p`'s id is the word of segment `k` and 0 otherwise —, multiplies it into the 64 × 256 gate and
multiplies the result, entry by entry, into the block of x. In the extended reals `0 · y = 0` for every `y`, so the
contraction with a selector row keeps the one term of the row's own segment: the block's result at (`p`, `q`) is
`x (p, q) · gate (s, q)` with `s` the row's segment. The blocks tile the array — row `r` lies in block `r / 4000` — so
the output array ends holding `x j · gate (segOf (id (j 0)), j 1)` at every index `j`, when every id is the word of a segment.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The body's arithmetic at one entry -/

/-- The selector word of a row: 1 where the two words agree, 0 elsewhere. -/
theorem sel1_word (a b : BitVec 32) :
    (FloatOps.sitofp (F := Ideal) .f32 ((IntOp.cmpi .eq a b).setWidth 32)) = if a = b then (1 : EReal) else 0 := by
  show ((((IntOp.cmpi .eq a b).setWidth 32).toInt : ℝ) : EReal) = _
  by_cases h : a = b
  · have h1 : IntOp.cmpi .eq a b = 1#1 := by
      show BitVec.ofBool (a == b) = 1#1
      rw [beq_iff_eq.mpr h]; rfl
    rw [if_pos h, h1]
    norm_num
  · have h0 : IntOp.cmpi .eq a b = 0#1 := by
      show BitVec.ofBool (a == b) = 0#1
      rw [beq_eq_false_iff_ne.mpr h]; rfl
    rw [if_neg h, h0]
    norm_num

/-- The contraction's operand indices at output index `i` and contraction index `q`: (row of `i`, `q`) on the left, (`q`, column of `i`) on the right. -/
theorem lhs_gm1_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
theorem lhs_gm1_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
theorem rhs_gm1_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
theorem rhs_gm1_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- The selector matrix at row `p`, segment `k`. -/
theorem sel1_apply (x1 : Vec Ideal S4000x1 .i32) (p : Fin 4000) (k : Fin 64) :
    (sitofp .f32 (extui 32 (cmpi .eq (broadcastTo S4000x64 (shapeCast S4000x1 x1 shapeCasts_S4000x1_S4000x1) broadcasts_S4000x1_S4000x64)
      (iota .tc S4000x64 32 [1] iota_S4000x64_d1_w32)) natLt_1_32) : FVec Ideal S4000x64 .f32) (ix2 p k)
      = if (x1 : S4000x1.Idx → BitVec 32) (ix2 p 0) = Cert.Spec.segWord k then (1 : EReal) else 0 := by
  rw [sitofp_apply, extui_apply]
  show FloatOps.sitofp (F := Ideal) .f32 ((IntOp.cmpi .eq (broadcastTo S4000x64 (shapeCast S4000x1 x1 shapeCasts_S4000x1_S4000x1) broadcasts_S4000x1_S4000x64 (ix2 p k)) (iota .tc S4000x64 32 [1] iota_S4000x64_d1_w32 (ix2 p k))).setWidth 32) = _
  rw [shapeCast_self, iota_single_apply,
    broadcastTo_apply (s := S4000x1) (t := S4000x64) x1 broadcasts_S4000x1_S4000x64 (ix2 p k) (ix2 p 0) (fun a => by
      match a with
      | ⟨0, _⟩ => show p.val = if (4000 : Nat) = 1 then 0 else p.val; rw [if_neg (by decide)]
      | ⟨1, _⟩ => show (0 : Nat) = if (1 : Nat) = 1 then 0 else k.val; rw [if_pos rfl])]
  exact sel1_word _ _

/-- The body's result at row `p`, column `q`, when the row's id is the word of segment `s`: the entry of the x block times
    the gate's entry at (`s`, `q`) — the contraction with the selector row keeps one term, `0 · y = 0` for every extended real. -/
theorem pay1_apply (x0 : Vec Ideal S4000x256 .f32) (x1 : Vec Ideal S4000x1 .i32) (x2 : Vec Ideal S64x256 .f32)
    (p : Fin 4000) (q : Fin 256) (s : Fin 64) (hs : (x1 : S4000x1.Idx → BitVec 32) (ix2 p 0) = Cert.Spec.segWord s) :
    (k1_pay1 (F := Ideal) x0 x1 x2 : S4000x256.Idx → EReal) (ix2 p q)
      = (x0 : S4000x256.Idx → EReal) (ix2 p q) * (x2 : S64x256.Idx → EReal) (ix2 s q) := by
  unfold k1_pay1
  rw [mulf_apply]
  refine congrArg ((x0 : S4000x256.Idx → EReal) (ix2 p q) * ·) ?_
  rw [shapeCast_self (s := S64x256)]
  refine (Ideal.matmul_constant_zero_apply _ _ _ _ _).trans ?_
  rw [← Equiv.sum_comp (ValueIdx.contrEquiv1 dot_S4000x64_S64x256_S4000x256_1_0_0_1_n_n 64 rfl rfl).symm]
  refine (Finset.sum_congr rfl fun k _ => ?_).trans (Cert.Spec.sum_onehot_row (fun k => (x2 : S64x256.Idx → EReal) (ix2 k q)) _ s hs)
  have hk := ValueIdx.contrEquiv1_symm_val dot_S4000x64_S64x256_S4000x256_1_0_0_1_n_n 64 rfl rfl k
  have el : dot_S4000x64_S64x256_S4000x256_1_0_0_1_n_n.lhsIdx (ix2 p q) ((ValueIdx.contrEquiv1 dot_S4000x64_S64x256_S4000x256_1_0_0_1_n_n 64 rfl rfl).symm k) = ix2 p k := funext fun a => Fin.ext (by
    match a with
    | ⟨0, _⟩ => exact lhs_gm1_0 _ _
    | ⟨1, _⟩ => exact (lhs_gm1_1 _ _).trans hk)
  have er : dot_S4000x64_S64x256_S4000x256_1_0_0_1_n_n.rhsIdx (ix2 p q) ((ValueIdx.contrEquiv1 dot_S4000x64_S64x256_S4000x256_1_0_0_1_n_n 64 rfl rfl).symm k) = ix2 k q := funext fun a => Fin.ext (by
    match a with
    | ⟨0, _⟩ => exact (rhs_gm1_0 _ _).trans hk
    | ⟨1, _⟩ => exact rhs_gm1_1 _ _)
  rw [el, er, sel1_apply]

/-- The body's result as one function of the three blocks, when every row's id is the word of a segment. -/
theorem pay1_eq (x0 : Vec Ideal S4000x256 .f32) (x1 : Vec Ideal S4000x1 .i32) (x2 : Vec Ideal S64x256 .f32)
    (hrow : ∀ p : Fin 4000, ∃ s : Fin 64, (x1 : S4000x1.Idx → BitVec 32) (ix2 p 0) = Cert.Spec.segWord s) :
    (k1_pay1 (F := Ideal) x0 x1 x2 : S4000x256.Idx → EReal)
      = fun j => (x0 : S4000x256.Idx → EReal) j * (x2 : S64x256.Idx → EReal) (ix2 (Cert.Spec.segOf ((x1 : S4000x1.Idx → BitVec 32) (ix2 (j 0) 0))) (j 1)) := by
  funext j
  obtain ⟨p, q, rfl⟩ : ∃ (p : Fin 4000) (q : Fin 256), j = ix2 p q := ⟨j 0, j 1, eq_ix2 j⟩
  obtain ⟨s, hs⟩ := hrow p
  rw [pay1_apply x0 x1 x2 p q s hs]
  show _ = (x0 : S4000x256.Idx → EReal) (ix2 p q) * (x2 : S64x256.Idx → EReal) (ix2 (Cert.Spec.segOf ((x1 : S4000x1.Idx → BitVec 32) (ix2 p 0))) q)
  rw [hs, Cert.Spec.segOf_segWord]

/-! ## From the blocks to the array -/

section
variable (V : (c : Dev nD) → (b : Ref sig .tc) → Buf (Elt Ideal) ((c : Thread nD τ).loc b))

theorem zero_off1 : (![0, 0] : Fin 2 → Nat) = fun _ => 0 := funext fun a => by fin_cases a <;> rfl

/-- What the output array ends holding: each entry of x times the gate's entry of the row's own segment. -/
abbrev gated1 (a0 : S1000000x256.Idx → EReal) (a1 : S1000000x1.Idx → BitVec 32) (a2 : S64x256.Idx → EReal) : S1000000x256.Idx → EReal :=
  fun j => a0 j * a2 (ix2 (Cert.Spec.segOf (a1 (ix2 (j 0) 0))) (j 1))

/-- The block index maps over the grid: x, the ids and the output move together, block `t` at point `t`; the gate's one block stays. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The three arrays region 1 reads, at their literal types: x, the ids as a column, the gate. -/
abbrev xarr1 (c : Dev nD) : S1000000x256.Idx → EReal := V c main_arg0
abbrev idcol1 (c : Dev nD) : S1000000x1.Idx → BitVec 32 := V c main_v0
abbrev gate1 (c : Dev nD) : S64x256.Idx → EReal := V c main_v16

/-- Every id of the column is the word of a segment, at any index of the column. -/
theorem ids_in_range1 (a1 : S1000000x1.Idx → BitVec 32)
    (hb : ∀ t : Fin 1000000, ∃ s : Fin 64, a1 (ix2 t 0) = Cert.Spec.segWord s) (i : S1000000x1.Idx) :
    ∃ s : Fin 64, a1 i = Cert.Spec.segWord s := by
  have hi : i = ix2 (i 0) 0 := by
    funext a
    match a with
    | ⟨0, _⟩ => rfl
    | ⟨1, _⟩ => exact Fin.ext (by have h1 : (i 1).val < 1 := (i 1).isLt; show (i 1).val = 0; omega)
  rw [hi]
  exact hb (i 0)

/-- What point `t` writes back is block `t` of `gated1` of the arrays the region finds. -/
theorem flushed1_3_eq (c : Dev nD)
    (hb : ∀ t : Fin 1000000, ∃ s : Fin 64, idcol1 V c (ix2 t 0) = Cert.Spec.segWord s)
    (t : Fin cfg1.N) :
    (dat1 (F := Ideal) V c).flushed 3 t = ((cfg1.win 3).blk t).view.read (Elt Ideal) (gated1 (xarr1 V c) (idcol1 V c) (gate1 V c)) := by
  show (cfg1.win 3).cut (grid1.coords t) ((dat1 V c).after 3 t) = _
  rw [after1_3]
  unfold out1_3
  rw [View.canon_unit_zero zero_off1]
  simp only [View.ld_unit_zero (S := S4000x256) zero_off1, View.ld_unit_zero (S := S4000x1) zero_off1, View.ld_unit_zero (S := S64x256) zero_off1]
  rw [pay1_eq (iblk1 V c 0 t) (iblk1 V c 1 t) (iblk1 V c 2 t) (fun p => ids_in_range1 (idcol1 V c) hb _)]
  obtain ⟨e0, e1, e2, e3, e4, e5, e6, e7⟩ := idx_facts1 t
  funext j
  show xarr1 V c (((cfg1.win 0).blk t).view.emb j) * gate1 V c (((cfg1.win 2).blk t).view.emb (ix2 (Cert.Spec.segOf (idcol1 V c (((cfg1.win 1).blk t).view.emb (ix2 (j 0) 0)))) (j 1)))
    = xarr1 V c (((cfg1.win 3).blk t).view.emb j) * gate1 V c (ix2 (Cert.Spec.segOf (idcol1 V c (ix2 ((((cfg1.win 3).blk t).view.emb j) 0) 0))) ((((cfg1.win 3).blk t).view.emb j) 1))
  have hj0 : (j 0).val < 4000 := (j 0).isLt
  have hj1 : (j 1).val < 256 := (j 1).isLt
  have h0 : ((cfg1.win 0).blk t).view.emb j = ((cfg1.win 3).blk t).view.emb j := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 256 + 1 * (j 1).val = win1_3.index t (1 : Fin 2) * 256 + 1 * (j 1).val; omega
  have h1 : idcol1 V c (((cfg1.win 1).blk t).view.emb (ix2 (j 0) 0)) = idcol1 V c (ix2 ((((cfg1.win 3).blk t).view.emb j) 0) 0) :=
    congrArg (idcol1 V c) (by
      funext a; apply Fin.ext
      match a with
      | ⟨0, _⟩ => show win1_1.index t (0 : Fin 2) * 4000 + 1 * (j 0).val = win1_3.index t (0 : Fin 2) * 4000 + 1 * (j 0).val; omega
      | ⟨1, _⟩ => show win1_1.index t (1 : Fin 2) * 1 + 1 * 0 = 0; omega)
  have h2 : ∀ s : Fin 64, ((cfg1.win 2).blk t).view.emb (ix2 s (j 1)) = (ix2 s ((((cfg1.win 3).blk t).view.emb j) 1) : S64x256.Idx) := fun s => by
    funext a; apply Fin.ext
    match a with
    | ⟨0, _⟩ => show win1_2.index t (0 : Fin 2) * 64 + 1 * s.val = s.val; omega
    | ⟨1, _⟩ => show win1_2.index t (1 : Fin 2) * 256 + 1 * (j 1).val = win1_3.index t (1 : Fin 2) * 256 + 1 * (j 1).val; omega
  rw [h0]
  exact congrArg (xarr1 V c (((cfg1.win 3).blk t).view.emb j) * gate1 V c ·)
    ((h2 _).trans (congrArg (fun s : Fin 64 => (ix2 s ((((cfg1.win 3).blk t).view.emb j) 1) : S64x256.Idx)) (congrArg Cert.Spec.segOf h1)))

/-- An index of the array is in point `t`'s block iff each coordinate is in the block's range on its axis. -/
theorem mem_blk1_3 (t : Fin cfg1.N) (i : S1000000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole main_v17).slice (win1_3.rect t)).set ↔ _
  rw [View.set_slice_whole, Rect.mem_set_unit]
  exact Iff.rfl

/-- Every row lies in the block of the point that is its quotient by 4000. -/
theorem cover1_3_arr (i : S1000000x256.Idx) :
    ∃ t : Fin cfg1.N, (cfg1.win 3).flush t = true ∧ i ∈ ((cfg1.win 3).blk t).view.set := by
  have hi0 : (i 0).val < 1000000 := (i 0).isLt
  have hi1 : (i 1).val < 256 := (i 1).isLt
  have ht : (i 0).val / 4000 < cfg1.N := by show (i 0).val / 4000 < 250; omega
  refine ⟨⟨(i 0).val / 4000, ht⟩, flush1_3 _, ?_⟩
  obtain ⟨e0, e1, e2, e3, e4, e5, e6, e7⟩ := idx_facts1 ⟨(i 0).val / 4000, ht⟩
  rw [mem_blk1_3]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; rw [e6]; show (i 0).val / 4000 * 4000 ≤ (i 0).val ∧ (i 0).val < (i 0).val / 4000 * 4000 + 4000; omega
  | ⟨1, _⟩ => show win1_3.index ⟨(i 0).val / 4000, ht⟩ (1 : Fin 2) * 256 ≤ (i 1).val ∧ (i 1).val < win1_3.index ⟨(i 0).val / 4000, ht⟩ (1 : Fin 2) * 256 + 256; rw [e7]; omega

/-- THE VALUE of region 1: its output array ends holding, entry by entry, x times the gate's entry of the row's own
    segment, when every row's id is the word of a segment. -/
theorem region1_value (c : Dev nD)
    (hb : ∀ t : Fin 1000000, ∃ s : Fin 64, idcol1 V c (ix2 t 0) = Cert.Spec.segWord s) :
    (dat1 (F := Ideal) V c).arrAt 3 cfg1.N
      = fun j : S1000000x256.Idx => xarr1 V c j * gate1 V c (ix2 (Cert.Spec.segOf (idcol1 V c (ix2 (j 0) 0))) (j 1)) :=
  (dat1 (F := Ideal) V c).arrAt_eq_of_cover 3 (gated1 (xarr1 V c) (idcol1 V c) (gate1 V c)) (fun t _ => flushed1_3_eq V c hb t) cover1_3_arr

end

end Cert.KernelIdeal.Hand

end
-- ==== Proof.KernelIdealHostValue.lean ====
import proofs.«421541_j94489280931_2_alg».proof.Proof.KernelIdealRun
import proofs.«421541_j94489280931_2_alg».proof.Proof.KernelIdealRegion1Value
import proofs.«421541_j94489280931_2_alg».proof.Proof.Spec
import Idealize.ShloMosaic.Lib.IdealHost
import Idealize.ShloMosaic.Lib.Pipeline.Value

/-!
# The kernel program's result as the specification, at the ideal values

Between the two kernel regions the host sums the two cores' partial sums and counts, divides the sums by the counts
taken as at least one (the segment mean), and carries the mean through a small chain of matrix products to a gate;
the second region multiplies every row by its own segment's gate row.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-- The host chain from the mean to the gate, as one function of the mean and the two weight matrices:
    `1 / (1 + exp (-(max (z · W1) 0 · W2)))`. -/
def gateK {F : FTy → Type} [FloatOps F] (z : FVec F S64x256 .f32) (W1 : FVec F S256x64 .f32) (W2 : FVec F S64x256 .f32) :
    FVec F S64x256 .f32 :=
  Host.divf (broadcastInDim S64x256 ![] bcast_S_S64x256 (constant (F := F) S_ .f32 0x3F800000#32))
    (addf (broadcastInDim S64x256 ![] bcast_S_S64x256 (constant (F := F) S_ .f32 0x3F800000#32))
      (Host.exp (Host.negf (Host.dotGeneral dot_S64x64_S64x256_S64x256_1_0_0_1_n_n none
        (maximumf (Host.dotGeneral dot_S64x256_S256x64_S64x64_1_0_0_1_n_n none z W1)
          (broadcastInDim S64x64 ![] bcast_S_S64x64 (constant (F := F) S_ .f32 0x00000000#32))) W2))))

/-- The host's mean of the two cores' partial sums `sum2` over their partial counts `cnt2`: the sums added over the
    cores, divided by the counts added over the cores and taken as at least one. -/
def zK {F : FTy → Type} [FloatOps F] (sum2 : FVec F S2x64x256 .f32) (cnt2 : FVec F S2x64x1 .f32) : FVec F S64x256 .f32 :=
  Host.divf (Host.reduceAdd sum2 (constant (F := F) S_ .f32 0x00000000#32) reducesTo_S2x64x256_S64x256_d0 h_S_)
    (broadcastInDim S64x256 ![0, 1] bcast_S64x1_S64x256_0_1
      (maximumf (Host.reduceAdd cnt2 (constant (F := F) S_ .f32 0x00000000#32) reducesTo_S2x64x1_S64x1_d0 h_S_)
        (broadcastInDim S64x1 ![] bcast_S_S64x1 (constant (F := F) S_ .f32 0x3F800000#32))))

/-- The [64,1] index a [64,256] index reads of an array broadcast along the columns. -/
abbrev idxCol (j : S64x256.Idx) : S64x1.Idx := fun a => match a with
  | ⟨0, _⟩ => ⟨(j 0).val, (j 0).isLt⟩
  | ⟨1, _⟩ => ⟨0, Nat.one_pos⟩

/-- The two cores' partial sums added are the segment's sum. -/
theorem sum2_apply (X : Cert.Spec.SX.Idx → EReal) (b : Cert.Spec.SB.Idx → BitVec 32) (j : S64x256.Idx) :
    Host.reduceAdd (fun j : S2x64x256.Idx => ∑ i : Fin 125, Cert.Spec.tileSum X b (j 0) i (j 1) (j 2))
        (constant (F := Ideal) S_ .f32 0x00000000#32) reducesTo_S2x64x256_S64x256_d0 h_S_ j
      = Cert.Spec.segSum X b (j 0) (j 1) := by
  have hR : S2x64x256.Reduces [0] S64x256 := by decide
  refine (hostReduceAdd_apply _ _ _ _ j).trans ?_
  rw [Ideal.hostReduceAdd_single reducesTo_S2x64x256_S64x256_d0 hR, constant_apply, Ideal.ofBits_zero_f32, zero_add]
  exact (Cert.Spec.segSum_eq_tiles X b (j 0) (j 1)).symm

/-- The two cores' partial counts added are the segment's count. -/
theorem cnt2_apply (b : Cert.Spec.SB.Idx → BitVec 32) (j : S64x1.Idx) :
    Host.reduceAdd (fun j : S2x64x1.Idx => ∑ i : Fin 125, Cert.Spec.tileCnt 1 b (j 0) i (j 1))
        (constant (F := Ideal) S_ .f32 0x00000000#32) reducesTo_S2x64x1_S64x1_d0 h_S_ j
      = Cert.Spec.segCnt 1 b (j 0) := by
  have hR : S2x64x1.Reduces [0] S64x1 := by decide
  refine (hostReduceAdd_apply _ _ _ _ j).trans ?_
  rw [Ideal.hostReduceAdd_single reducesTo_S2x64x1_S64x1_d0 hR, constant_apply, Ideal.ofBits_zero_f32, zero_add]
  exact (Cert.Spec.segCnt_eq_tiles 1 b (j 0)).symm

/-- The host's mean of the region's partial sums and counts is the segment mean. -/
theorem zK_eq_zmean (X : Cert.Spec.SX.Idx → EReal) (b : Cert.Spec.SB.Idx → BitVec 32) :
    zK (F := Ideal) (fun j : S2x64x256.Idx => ∑ i : Fin 125, Cert.Spec.tileSum X b (j 0) i (j 1) (j 2))
        (fun j : S2x64x1.Idx => ∑ i : Fin 125, Cert.Spec.tileCnt 1 b (j 0) i (j 1))
      = Cert.Spec.zmean X b := by
  funext j
  unfold zK Cert.Spec.zmean
  refine (hostDivf_apply _ _ j).trans ?_
  refine congrArg₂ Ideal.div (sum2_apply X b j) ?_
  refine (broadcastInDim_apply _ bcast_S64x1_S64x256_0_1 _ j (idxCol j) (fun a => match a with
    | ⟨0, _⟩ => by show (j 0).val = if (64 : Nat) = 1 then 0 else (j 0).val; rw [if_neg (by decide)]
    | ⟨1, _⟩ => by show 0 = if (1 : Nat) = 1 then 0 else (j 1).val; rw [if_pos rfl])).trans ?_
  refine (maximumf_apply _ _ _).trans ?_
  refine congrArg₂ max (cnt2_apply b (idxCol j)) ?_
  refine (broadcastInDim_scalar_apply bcast_S_S64x1 _ _).trans ?_
  rw [constant_apply, Ideal.ofBits_one_f32]

/-! ## What the host stretches write, over any contents before them -/

section Host
variable {F : FTy → Type} [FloatOps F] (Vv : Valuation τ sig (Elt F))

/-- The first stretch after region 0 leaves, in the buffer of the first product, the mean times the first weight matrix. -/
theorem after1_main_v8 :
    (StableHlo.after hostOps1 Vv (Proc.devRef .tc main_v8) : FVec F S64x64 .f32)
      = Host.dotGeneral dot_S64x256_S256x64_S64x64_1_0_0_1_n_n none
          (zK (Vv (Proc.devRef .tc main_v1_0) : FVec F S2x64x256 .f32) (Vv (Proc.devRef .tc main_v1_1) : FVec F S2x64x1 .f32))
          (Vv (Proc.devRef .tc main_arg2) : FVec F S256x64 .f32) := by
  simp only [hostOps1]
  after_results
  rfl

/-- The second stretch clamps the first product at zero from below. -/
theorem after11_main_v9 :
    (StableHlo.after hostOps1_1 Vv (Proc.devRef .tc main_v9) : FVec F S64x64 .f32)
      = maximumf (Vv (Proc.devRef .tc main_v8) : FVec F S64x64 .f32)
          (broadcastInDim S64x64 ![] bcast_S_S64x64 (constant (F := F) S_ .f32 0x00000000#32)) := by
  simp only [hostOps1_1]
  after_results
  rfl

/-- The third stretch takes the second product and the logistic function of it. -/
theorem after12_main_v16 :
    (StableHlo.after hostOps1_2 Vv (Proc.devRef .tc main_v16) : FVec F S64x256 .f32)
      = Host.divf (broadcastInDim S64x256 ![] bcast_S_S64x256 (constant (F := F) S_ .f32 0x3F800000#32))
          (addf (broadcastInDim S64x256 ![] bcast_S_S64x256 (constant (F := F) S_ .f32 0x3F800000#32))
            (Host.exp (Host.negf (Host.dotGeneral dot_S64x64_S64x256_S64x256_1_0_0_1_n_n none
              (Vv (Proc.devRef .tc main_v9) : FVec F S64x64 .f32) (Vv (Proc.devRef .tc main_arg3) : FVec F S64x256 .f32))))) := by
  simp only [hostOps1_2]
  after_results

/-- The reshape before region 0 writes the ids as a one-column matrix. -/
theorem after0_main_v0 :
    (StableHlo.after hostOps0 Vv (Proc.devRef .tc main_v0) : Vec F S1000000x1 .i32)
      = shapeCast S1000000x1 (Vv (Proc.devRef .tc main_arg1) : Vec F S1000000 .i32) shapeCasts_S1000000_S1000000x1 := by
  simp only [hostOps0]
  after_results
  rfl

end Host

/-! ## The buffers at the region boundaries -/

section Run
variable (m : (ℓ : Loc nD τ sig) → Buf (Elt Ideal) ℓ) (ρ : Dev nD → PrngReg) (c : Dev nD)

/-- A one-column reshape read at row `t` is the vector at `t`. -/
theorem shapeCast_col_apply {α : Type} (x : S1000000.Idx → α) (a : S1000000.Idx) :
    shapeCast S1000000x1 x shapeCasts_S1000000_S1000000x1 (ix2 (a 0) 0) = x a := by
  refine shapeCast_apply x _ _ a ?_
  rw [Shape.rowMajor_val_one, Shape.rowMajor_val_two]
  show (a 0).val = (a 0).val * 1 + 0
  omega

/-- Region 0 enters with the rows as launched. -/
theorem W1_main_arg0 : W1 m ρ c (Proc.devRef .tc main_arg0) = m ((c : Thread nD τ).loc main_arg0) :=
  (StableHlo.after_of_writes_sub hostOps0 _ hostOps0_writes (by decide)).trans rfl

/-- Region 0 enters with the ids as a one-column matrix. -/
theorem W1_main_v0 : (W1 m ρ c (Proc.devRef .tc main_v0) : Vec Ideal S1000000x1 .i32)
    = shapeCast S1000000x1 (m ((c : Thread nD τ).loc main_arg1) : Vec Ideal S1000000 .i32) shapeCasts_S1000000_S1000000x1 :=
  after0_main_v0 (W0 m ρ c)

/-- Read at row `t`, that matrix is the id of row `t`. -/
theorem W1_main_v0_apply (a : S1000000.Idx) :
    (W1 m ρ c (Proc.devRef .tc main_v0) : Vec Ideal S1000000x1 .i32) (ix2 (a 0) 0)
      = (m ((c : Thread nD τ).loc main_arg1) : Vec Ideal S1000000 .i32) a := by
  rw [W1_main_v0]; exact shapeCast_col_apply _ a

/-- Region 0 leaves the second weight matrix as launched, and so do the host stretches up to the second product. -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Region 0 leaves the first weight matrix as launched. -/
theorem W2_main_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Region 1 enters with the rows as launched. -/
theorem W5_main_arg0 : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_main_arg0 m ρ c

/-- Region 1 enters with the one-column ids region 0 entered with. -/
theorem W5_main_v0 : W5 m ρ c (Proc.devRef .tc main_v0) = W1 m ρ c (Proc.devRef .tc main_v0) :=
  calc W5 m ρ c (Proc.devRef .tc main_v0)
    _ = W4 m ρ c (Proc.devRef .tc main_v0) := StableHlo.after_of_writes_sub hostOps1_2 _ hostOps1_2_writes (by decide)
    _ = W3 m ρ c (Proc.devRef .tc main_v0) := StableHlo.after_of_writes_sub hostOps1_1 _ hostOps1_1_writes (by decide)
    _ = W2 m ρ c (Proc.devRef .tc main_v0) := StableHlo.after_of_writes_sub hostOps1 _ hostOps1_writes (by decide)
    _ = W1 m ρ c (Proc.devRef .tc main_v0) := (W2_arr m ρ c 1).trans (((dat0 (V1 m ρ) c).arrAt_in 1 rfl _).trans (A_eq0 (V1 m ρ) c 1))

/-- Region 1 enters with the gate of the host's mean of region 0's partial sums and counts. -/
theorem W5_main_v16 : (W5 m ρ c (Proc.devRef .tc main_v16) : FVec Ideal S64x256 .f32)
    = gateK (F := Ideal) (zK (F := Ideal) ((dat0 (V1 m ρ) c).arrAt 2 cfg0.N : FVec Ideal S2x64x256 .f32) ((dat0 (V1 m ρ) c).arrAt 3 cfg0.N : FVec Ideal S2x64x1 .f32))
        (m ((c : Thread nD τ).loc main_arg2) : FVec Ideal S256x64 .f32) (m ((c : Thread nD τ).loc main_arg3) : FVec Ideal S64x256 .f32) := by
  refine (after12_main_v16 (W4 m ρ c)).trans ?_
  rw [W4_main_arg3]
  have h9 : (W4 m ρ c (Proc.devRef .tc main_v9) : FVec Ideal S64x64 .f32) = _ := after11_main_v9 (W3 m ρ c)
  have h8 : (W3 m ρ c (Proc.devRef .tc main_v8) : FVec Ideal S64x64 .f32) = _ := after1_main_v8 (W2 m ρ c)
  rw [h9, h8, W2_main_arg2, W2_arr m ρ c 2, W2_arr m ρ c 3]
  rfl

end Run

/-! ## The result -/

section Result
variable (m : (ℓ : Loc nD τ sig) → Buf (Elt Ideal) ℓ) (ρ : Dev nD → PrngReg) (c : Dev nD)

/-- The ids region 0 reads down the one column are the ids as launched. -/
theorem idcol_eq : (fun a : Cert.Spec.SB.Idx => (V1 m ρ c main_v0 : S1000000x1.Idx → BitVec 32) (ix2 (a 0) 0))
    = (m ((c : Thread nD τ).loc main_arg1) : Cert.Spec.SB.Idx → BitVec 32) :=
  funext fun a => W1_main_v0_apply m ρ c a

/-- The ids region 1 reads down the one column are the ids as launched. -/
theorem idcol5_apply (t : Fin 1000000) : (V5 m ρ c main_v0 : S1000000x1.Idx → BitVec 32) (ix2 t 0)
    = (m ((c : Thread nD τ).loc main_arg1) : Cert.Spec.SB.Idx → BitVec 32) (ix1 t) := by
  show (W5 m ρ c (Proc.devRef .tc main_v0) : Vec Ideal S1000000x1 .i32) (ix2 t 0) = _
  rw [W5_main_v0]
  exact W1_main_v0_apply m ρ c (ix1 t)

/-- The program's result from region 0's value: region 0 leaves the tiles' partial sums and counts per core, the host
    turns them into the segment mean and the mean into the gate, and region 1 multiplies each row by the gate row of
    its segment. -/
theorem kernel_result_of
    (hsum : (dat0 (F := Ideal) (V1 m ρ) c).arrAt 2 cfg0.N = fun j : S2x64x256.Idx => ∑ i : Fin 125,
      Cert.Spec.tileSum (V1 m ρ c main_arg0 : S1000000x256.Idx → EReal)
        (fun a : Cert.Spec.SB.Idx => (V1 m ρ c main_v0 : S1000000x1.Idx → BitVec 32) (ix2 (a 0) 0)) (j 0) i (j 1) (j 2))
    (hcnt : (dat0 (F := Ideal) (V1 m ρ) c).arrAt 3 cfg0.N = fun j : S2x64x1.Idx => ∑ i : Fin 125,
      Cert.Spec.tileCnt 1 (fun a : Cert.Spec.SB.Idx => (V1 m ρ c main_v0 : S1000000x1.Idx → BitVec 32) (ix2 (a 0) 0)) (j 0) i (j 1))
    (hb : Cert.Spec.InRange (m ((c : Thread nD τ).loc main_arg1))) :
    (dat1 (F := Ideal) (V5 m ρ) c).arrAt 3 cfg1.N
      = Cert.Spec.gated (m ((c : Thread nD τ).loc main_arg0)) (m ((c : Thread nD τ).loc main_arg1))
          (gateK (F := Ideal) (Cert.Spec.zmean (m ((c : Thread nD τ).loc main_arg0)) (m ((c : Thread nD τ).loc main_arg1)))
            (m ((c : Thread nD τ).loc main_arg2)) (m ((c : Thread nD τ).loc main_arg3))) := by
  have hz : zK (F := Ideal) ((dat0 (V1 m ρ) c).arrAt 2 cfg0.N : FVec Ideal S2x64x256 .f32) ((dat0 (V1 m ρ) c).arrAt 3 cfg0.N : FVec Ideal S2x64x1 .f32)
      = Cert.Spec.zmean (m ((c : Thread nD τ).loc main_arg0)) (m ((c : Thread nD τ).loc main_arg1)) := by
    rw [hsum, hcnt, idcol_eq m ρ c]
    have hX : (V1 m ρ c main_arg0 : S1000000x256.Idx → EReal) = m ((c : Thread nD τ).loc main_arg0) := W1_main_arg0 m ρ c
    rw [hX]
    exact zK_eq_zmean _ _
  refine (region1_value (V5 m ρ) c fun t => (hb t).imp fun s hs => (idcol5_apply m ρ c t).trans hs).trans ?_
  funext j
  unfold Cert.Spec.gated
  have h0 : xarr1 (V5 m ρ) c = m ((c : Thread nD τ).loc main_arg0) := W5_main_arg0 m ρ c
  have h16 : gate1 (V5 m ρ) c = _ := W5_main_v16 m ρ c
  have hid : idcol1 (V5 m ρ) c (ix2 (j 0) 0) = _ := idcol5_apply m ρ c (j 0)
  rw [h0, h16, hz, hid]

end Result

end Cert.KernelIdeal.Hand

end
-- ==== Proof.KernelIdealRegion0Pieces.lean ====
import proofs.«421541_j94489280931_2_alg».proof.Proof.KernelIdealRegion0
import Idealize.ShloMosaic.Lib.Pipeline.Value

/-!
# Region 0: what each case of the body leaves, as payloads of what it finds

At a point whose second coordinate is 0 both accumulators are zeroed and then updated: they end at the update of zero by
the point's tile. At every other point they end at the update of what the point before left. At a point whose second
coordinate is 124 the two output blocks moreover receive the updated accumulators, recast with a leading unit axis.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Second coordinate 0: zeroed, then updated -/

/-- The sums end at the update of zero by the tile. -/
theorem sout_A_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S64x256) hz2, View.readCov_unit_zero (S := S64x256) _ hz2]
  simp only [View.readAt_eq_ld, harg2.read_unread, harg3.read_unread, View.ld_unit_zero (S := S4000x256) hz2, View.ld_unit_zero (S := S4000x1) hz2]

/-- The counts end at the update of zero by the tile. -/
theorem sout_A_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S4000x256 .f32) (x1 : Vec F S4000x1 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S64x1) hz2, View.readCov_unit_zero (S := S64x1) _ hz2]
  simp only [View.readAt_eq_ld, harg2.read_unread, harg3.read_unread, View.ld_unit_zero (S := S4000x256) hz2, View.ld_unit_zero (S := S4000x1) hz2]

/-! ## Second coordinate strictly between 0 and 124: updated -/

/-- The sums end at the update of what was there by the tile. -/
theorem sout_B_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S64x256) hz2]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

/-- The counts end at the update of what was there by the tile. -/
theorem sout_B_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S4000x256 .f32) (x1 : Vec F S4000x1 .i32) (xs0 : Vec F S64x256 .f32) (xs1 : Vec F S64x1 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S64x1) hz2]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

/-! ## Second coordinate 124: updated, and handed to the output blocks -/

/-- The sums end at the update of what was there by the tile. -/
theorem sout_C_0 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    sout0_C_0 c i arg2 harg2 arg3 harg3 arg4 harg4 arg5 harg5 arg6 harg6 arg7 harg7 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero (S := S64x256) hz2]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

/-- The counts end at the update of what was there by the tile. -/
theorem sout_C_1 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero (S := S64x1) hz2]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

/-- The block of sums receives the updated sums, recast. -/
theorem out_C_2 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    out0_C_2 c i arg2 harg2 arg3 harg3 arg4 harg4 arg5 harg5 arg6 harg6 arg7 harg7 hc0 hc1 x0 x1 xs0 xs1 = k0_pay6 (k0_pay4 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x64x256) hz3]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

/-- The block of counts receives the updated counts, recast. -/
theorem out_C_3 (c : Dev nD) (i : grid0.Coords) (arg2 : Memref sig .tc .vmem S4000x256 .f32) (harg2 : arg2.IsWhole) (arg3 : Memref sig .tc .vmem S4000x1 .i32) (harg3 : arg3.IsWhole) (arg4 : Memref sig .tc .vmem S1x64x256 .f32) (harg4 : arg4.IsWhole) (arg5 : Memref sig .tc .vmem S1x64x1 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S4000x256 .f32) (x1 : Vec F S4000x1 .i32) (xs0 : Vec F S64x256 .f32) (xs1 : Vec F S64x1 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1x64x1) hz3]
  simp only [View.readAt_eq_ld, harg2.read_unread, harg3.read_unread, harg6.read_unread, harg7.read_unread, View.ld_unit_zero (S := S4000x256) hz2, View.ld_unit_zero (S := S4000x1) hz2, View.ld_unit_zero (S := S64x256) hz2, View.ld_unit_zero (S := S64x1) hz2, View.readCov_unit_zero (S := S64x256) _ hz2, View.readCov_unit_zero (S := S64x1) _ hz2]

end Cert.KernelIdeal.Hand

end
-- ==== Proof.KernelIdealRegion0Payload.lean ====
import proofs.«421541_j94489280931_2_alg».proof.Proof.Gen.KernelIdeal.Skeleton
import proofs.«421541_j94489280931_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
# Region 0's payloads at an index, over the extended reals

Each payload of the segment-sum body is read at one index: the two resets are zero everywhere; the one-hot matrix has a
one at (r, s) exactly when row r carries the word of segment s; the update of the sums adds, at (s, k), the entries of
column k over the rows of segment s; the update of the counts adds one unit per such row; the two final casts move
nothing.
-/

noncomputable section

open scoped BigOperators

namespace Cert.KernelIdeal.Hand

open Cert.KernelIdeal Cert.KernelIdeal.Gen
open Idealize.ShloMosaic Idealize.ShloMosaic.ValueIdx

/-- The reset of the sums is zero at every index. -/
theorem k0_pay1_apply (j : S64x256.Idx) : k0_pay1 (F := Ideal) j = (0 : EReal) := by
  unfold k0_pay1
  refine (shapeCast_apply _ _ j j rfl).trans ?_
  exact Ideal.ofBits_zero_f32

/-- The reset of the counts is zero at every index. -/
theorem k0_pay2_apply (j : S64x1.Idx) : k0_pay2 (F := Ideal) j = (0 : EReal) := by
  unfold k0_pay2
  refine (shapeCast_apply _ _ j j rfl).trans ?_
  exact Ideal.ofBits_zero_f32

/-- The one-hot entry at (r, s): one when row r carries the word of segment s, zero otherwise. -/
theorem k0_pay3_apply (x1 : Vec Ideal S4000x1 .i32) (r : Fin 4000) (s : Fin 64) :
    k0_pay3 (F := Ideal) x1 (ix2 r s) = if x1 (ix2 r 0) = Cert.Spec.segWord s then (1 : EReal) else 0 := by
  unfold k0_pay3
  show Scalar.sitofp (F := Ideal) .f32
      ((IntOp.cmpi .eq (broadcastTo S4000x64 (shapeCast S4000x1 x1 shapeCasts_S4000x1_S4000x1) broadcasts_S4000x1_S4000x64 (ix2 r s))
        (iota .tc S4000x64 32 [1] iota_S4000x64_d1_w32 (ix2 r s))).setWidth 32) = _
  have hb : broadcastTo S4000x64 (shapeCast S4000x1 x1 shapeCasts_S4000x1_S4000x1) broadcasts_S4000x1_S4000x64 (ix2 r s) = x1 (ix2 r 0) := by
    refine (broadcastTo_apply _ broadcasts_S4000x1_S4000x64 (ix2 r s) (ix2 r 0) (fun a => ?_)).trans ?_
    · match a with
      | ⟨0, _⟩ => rfl
      | ⟨1, _⟩ => rfl
    · exact shapeCast_apply _ _ (ix2 r 0) (ix2 r 0) rfl
  have hi : iota .tc S4000x64 32 [1] iota_S4000x64_d1_w32 (ix2 r s) = Cert.Spec.segWord s :=
    iota_single_apply .tc S4000x64 32 1 iota_S4000x64_d1_w32 (ix2 r s)
  rw [hb, hi, Ideal.scalar_sitofp_def]
  by_cases h : x1 (ix2 r 0) = Cert.Spec.segWord s
  · rw [if_pos h, h]
    simp [IntOp.cmpi]
  · rw [if_neg h]
    have hne : (x1 (ix2 r 0) == Cert.Spec.segWord s) = false := beq_eq_false_iff_ne.mpr h
    have : IntOp.cmpi .eq (x1 (ix2 r 0)) (Cert.Spec.segWord s) = 0#1 := by
      simp only [IntOp.cmpi, hne, BitVec.ofBool_false]
      rfl
    rw [this]
    simp

/-! ## The two products: both operands contract their axis 0 -/

theorem lhs_sum_0 (j : S64x256.Idx) (q : dot_S4000x64_S4000x256_S64x256_0_0_1_1_n_n.contr.Idx) :
    (dot_S4000x64_S4000x256_S64x256_0_0_1_1_n_n.lhsIdx j q 0).val = (q ⟨0, by decide⟩).val :=
  dot_S4000x64_S4000x256_S64x256_0_0_1_1_n_n.lhsIdx_val_of_single rfl j q
theorem lhs_sum_1 (j : S64x256.Idx) (q : dot_S4000x64_S4000x256_S64x256_0_0_1_1_n_n.contr.Idx) :
    (dot_S4000x64_S4000x256_S64x256_0_0_1_1_n_n.lhsIdx j q 1).val = (j 0).val := by
  unfold DotDims.lhsIdx
  rw [dif_neg (show ¬(1 : Fin S4000x64.rank) ∈ dot_S4000x64_S4000x256_S64x256_0_0_1_1_n_n.lhsBatch by decide), dif_pos (show (1 : Fin S4000x64.rank) ∈ dot_S4000x64_S4000x256_S64x256_0_0_1_1_n_n.lhsNonContracting by decide)]
  rfl
theorem rhs_sum_0 (j : S64x256.Idx) (q : dot_S4000x64_S4000x256_S64x256_0_0_1_1_n_n.contr.Idx) :
    (dot_S4000x64_S4000x256_S64x256_0_0_1_1_n_n.rhsIdx j q 0).val = (q ⟨0, by decide⟩).val :=
  dot_S4000x64_S4000x256_S64x256_0_0_1_1_n_n.rhsIdx_val_of_single rfl j q
theorem rhs_sum_1 (j : S64x256.Idx) (q : dot_S4000x64_S4000x256_S64x256_0_0_1_1_n_n.contr.Idx) :
    (dot_S4000x64_S4000x256_S64x256_0_0_1_1_n_n.rhsIdx j q 1).val = (j 1).val := by
  unfold DotDims.rhsIdx
  rw [dif_neg (show ¬(1 : Fin S4000x256.rank) ∈ dot_S4000x64_S4000x256_S64x256_0_0_1_1_n_n.rhsBatch by decide), dif_pos (show (1 : Fin S4000x256.rank) ∈ dot_S4000x64_S4000x256_S64x256_0_0_1_1_n_n.rhsNonContracting by decide)]
  rfl

/-- The update of the sums at (s, k): what was there plus column k over the rows of segment s. -/
theorem k0_pay4_apply (x0 : Vec Ideal S4000x256 .f32) (x1 : Vec Ideal S4000x1 .i32) (acc : Vec Ideal S64x256 .f32)
    (s : Fin 64) (k : Fin 256) :
    k0_pay4 (F := Ideal) x0 x1 acc (ix2 s k)
      = acc (ix2 s k) + ∑ r ∈ Finset.univ.filter (fun r : Fin 4000 => x1 (ix2 r 0) = Cert.Spec.segWord s), x0 (ix2 r k) := by
  unfold k0_pay4
  refine (shapeCast_apply _ _ (ix2 s k) (ix2 s k) rfl).trans ?_
  refine (addf_apply _ _ _).trans ?_
  refine congrArg (acc (ix2 s k) + ·) ?_
  refine (Ideal.matmul_constant_zero_apply dot_S4000x64_S4000x256_S64x256_0_0_1_1_n_n none _ _ (ix2 s k)).trans ?_
  refine (Equiv.sum_comp (contrEquiv1 dot_S4000x64_S4000x256_S64x256_0_0_1_1_n_n 4000 rfl rfl).symm _).symm.trans ?_
  refine Eq.trans ?_ (Cert.Spec.sum_ite_mul_eq_filter (fun r : Fin 4000 => x1 (ix2 r 0) = Cert.Spec.segWord s) (fun r => x0 (ix2 r k)))
  refine Finset.sum_congr rfl fun r _ => ?_
  have hk := contrEquiv1_symm_val dot_S4000x64_S4000x256_S64x256_0_0_1_1_n_n 4000 rfl rfl r
  have el : dot_S4000x64_S4000x256_S64x256_0_0_1_1_n_n.lhsIdx (ix2 s k) ((contrEquiv1 dot_S4000x64_S4000x256_S64x256_0_0_1_1_n_n 4000 rfl rfl).symm r) = ix2 r s := funext fun a => Fin.ext (by
    match a with
    | ⟨0, _⟩ => exact (lhs_sum_0 _ _).trans hk
    | ⟨1, _⟩ => exact lhs_sum_1 _ _)
  have er : dot_S4000x64_S4000x256_S64x256_0_0_1_1_n_n.rhsIdx (ix2 s k) ((contrEquiv1 dot_S4000x64_S4000x256_S64x256_0_0_1_1_n_n 4000 rfl rfl).symm r) = ix2 r k := funext fun a => Fin.ext (by
    match a with
    | ⟨0, _⟩ => exact (rhs_sum_0 _ _).trans hk
    | ⟨1, _⟩ => exact rhs_sum_1 _ _)
  rw [el, er, k0_pay3_apply]
  rfl

theorem lhs_cnt_0 (j : S64x1.Idx) (q : dot_S4000x64_S4000x1_S64x1_0_0_1_1_n_n.contr.Idx) :
    (dot_S4000x64_S4000x1_S64x1_0_0_1_1_n_n.lhsIdx j q 0).val = (q ⟨0, by decide⟩).val :=
  dot_S4000x64_S4000x1_S64x1_0_0_1_1_n_n.lhsIdx_val_of_single rfl j q
theorem lhs_cnt_1 (j : S64x1.Idx) (q : dot_S4000x64_S4000x1_S64x1_0_0_1_1_n_n.contr.Idx) :
    (dot_S4000x64_S4000x1_S64x1_0_0_1_1_n_n.lhsIdx j q 1).val = (j 0).val := by
  unfold DotDims.lhsIdx
  rw [dif_neg (show ¬(1 : Fin S4000x64.rank) ∈ dot_S4000x64_S4000x1_S64x1_0_0_1_1_n_n.lhsBatch by decide), dif_pos (show (1 : Fin S4000x64.rank) ∈ dot_S4000x64_S4000x1_S64x1_0_0_1_1_n_n.lhsNonContracting by decide)]
  rfl

/-- The update of the counts at (s, 0): what was there plus one unit per row of segment s. -/
theorem k0_pay5_apply (x1 : Vec Ideal S4000x1 .i32) (acc : Vec Ideal S64x1 .f32) (s : Fin 64) (u : Fin 1) :
    k0_pay5 (F := Ideal) x1 acc (ix2 s u)
      = acc (ix2 s u) + ∑ _r ∈ Finset.univ.filter (fun r : Fin 4000 => x1 (ix2 r 0) = Cert.Spec.segWord s), (1 : EReal) := by
  unfold k0_pay5
  refine (shapeCast_apply _ _ (ix2 s u) (ix2 s u) rfl).trans ?_
  refine (addf_apply _ _ _).trans ?_
  refine congrArg (acc (ix2 s u) + ·) ?_
  refine (Ideal.matmul_constant_zero_apply dot_S4000x64_S4000x1_S64x1_0_0_1_1_n_n none _ _ (ix2 s u)).trans ?_
  refine (Equiv.sum_comp (contrEquiv1 dot_S4000x64_S4000x1_S64x1_0_0_1_1_n_n 4000 rfl rfl).symm _).symm.trans ?_
  refine Eq.trans ?_ (Cert.Spec.sum_ite_mul_eq_filter (fun r : Fin 4000 => x1 (ix2 r 0) = Cert.Spec.segWord s) (fun _ => (1 : EReal)))
  refine Finset.sum_congr rfl fun r _ => ?_
  have hk := contrEquiv1_symm_val dot_S4000x64_S4000x1_S64x1_0_0_1_1_n_n 4000 rfl rfl r
  have el : dot_S4000x64_S4000x1_S64x1_0_0_1_1_n_n.lhsIdx (ix2 s u) ((contrEquiv1 dot_S4000x64_S4000x1_S64x1_0_0_1_1_n_n 4000 rfl rfl).symm r) = ix2 r s := funext fun a => Fin.ext (by
    match a with
    | ⟨0, _⟩ => exact (lhs_cnt_0 _ _).trans hk
    | ⟨1, _⟩ => exact lhs_cnt_1 _ _)
  rw [el, k0_pay3_apply]
  exact congrArg ((if x1 (ix2 r 0) = Cert.Spec.segWord s then (1 : EReal) else 0) * ·) Ideal.ofBits_one_bf16

/-- The final cast of the sums moves nothing: entry (0, s, k) is entry (s, k). -/
theorem k0_pay6_apply (acc : Vec Ideal S64x256 .f32) (u : Fin 1) (s : Fin 64) (k : Fin 256) :
    k0_pay6 (F := Ideal) acc (ix3 u s k) = acc (ix2 s k) := by
  unfold k0_pay6
  exact shapeCast_ab_1ab_apply (a := 64) (b := 256) acc shapeCasts_S64x256_S1x64x256 u s k

/-- The final cast of the counts moves nothing: entry (0, s, 0) is entry (s, 0). -/
theorem k0_pay7_apply (acc : Vec Ideal S64x1 .f32) (u : Fin 1) (s : Fin 64) (v : Fin 1) :
    k0_pay7 (F := Ideal) acc (ix3 u s v) = acc (ix2 s v) := by
  unfold k0_pay7
  exact shapeCast_ab_1ab_apply (a := 64) (b := 1) acc shapeCasts_S64x1_S1x64x1 u s v

end Cert.KernelIdeal.Hand
-- ==== Proof.KernelIdealRegion0Value.lean ====
import proofs.«421541_j94489280931_2_alg».proof.Proof.KernelIdealRegion0Pieces
import proofs.«421541_j94489280931_2_alg».proof.Proof.KernelIdealRegion0Payload

/-!
# Region 0 over the extended reals: the two output arrays are the per-core sums over the 125 tiles

Walking one core's 125 points, the accumulator of sums holds after point i the sum of the first i + 1 tiles' shares, and
the accumulator of counts the number of rows so far; at the last point of the core both are handed to the core's block
of the outputs, which is written back. The two written-back blocks, one per core, make up each output array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Where each point's blocks sit in their arrays -/

theorem idx0_0 : ∀ t : Fin grid0.N, win0_0.index t 0 = t.val ∧ win0_0.index t 1 = 0 := by decide +kernel
theorem idx0_1 : ∀ t : Fin grid0.N, win0_1.index t 0 = t.val ∧ win0_1.index t 1 = 0 := by decide +kernel
theorem idx0_2 : ∀ t : Fin grid0.N, win0_2.index t 0 = t.val / 125 ∧ win0_2.index t 1 = 0 ∧ win0_2.index t 2 = 0 := by decide +kernel
theorem idx0_3 : ∀ t : Fin grid0.N, win0_3.index t 0 = t.val / 125 ∧ win0_3.index t 1 = 0 ∧ win0_3.index t 2 = 0 := by decide +kernel

section

variable (V : (c : Dev nD) → (b : Ref sig .tc) → Buf (Elt Ideal) ((c : Thread nD τ).loc b))

/-- The rows, the ids as a column, the ids by row. -/
abbrev xarr (c : Dev nD) : Cert.Spec.SX.Idx → EReal := V c main_arg0
abbrev barr (c : Dev nD) : S1000000x1.Idx → BitVec 32 := V c main_v0
abbrev bseg (c : Dev nD) : Cert.Spec.SB.Idx → BitVec 32 := fun a => barr V c (ix2 (a 0) 0)
/-- The tile of rows and the tile of ids a point works on. -/
abbrev xblk (c : Dev nD) (t : Fin cfg0.N) : S4000x256.Idx → EReal := iblk0 (F := Ideal) V c 0 t
abbrev bblk (c : Dev nD) (t : Fin cfg0.N) : S4000x1.Idx → BitVec 32 := iblk0 (F := Ideal) V c 1 t

/-- Row r of point t's tile of rows is row 4000 t + r of the array. -/
theorem xblk_apply (c : Dev nD) (t : Fin cfg0.N) (r : Fin 4000) (k : Fin 256) (row : Fin 1000000)
    (hrow : row.val = t.val * 4000 + r.val) : xblk V c t (ix2 r k) = xarr V c (ix2 row k) := by
  show iblk0 (F := Ideal) V c 0 t (ix2 r k) = _
  unfold iblk0
  rw [View.read_apply]
  show V c main_arg0 _ = V c main_arg0 _
  congr 1
  funext a
  apply Fin.ext
  match a with
  | ⟨0, _⟩ => show win0_0.index t 0 * 4000 + 1 * r.val = row.val; rw [(idx0_0 t).1, hrow]; omega
  | ⟨1, _⟩ => show win0_0.index t 1 * 256 + 1 * k.val = k.val; rw [(idx0_0 t).2]; omega

/-- Row r of point t's tile of ids is row 4000 t + r of the column of ids. -/
theorem bblk_apply (c : Dev nD) (t : Fin cfg0.N) (r : Fin 4000) (u : Fin 1) (row : Fin 1000000)
    (hrow : row.val = t.val * 4000 + r.val) : bblk V c t (ix2 r u) = barr V c (ix2 row 0) := by
  show iblk0 (F := Ideal) V c 1 t (ix2 r u) = _
  unfold iblk0
  rw [View.read_apply]
  show V c main_v0 _ = V c main_v0 _
  congr 1
  funext a
  apply Fin.ext
  match a with
  | ⟨0, _⟩ => show win0_1.index t 0 * 4000 + 1 * r.val = row.val; rw [(idx0_1 t).1, hrow]; omega
  | ⟨1, _⟩ => show win0_1.index t 1 * 1 + 1 * u.val = 0; rw [(idx0_1 t).2]; omega

/-- A point's share of the sums, computed on its tile, is the tile's share of the whole. -/
theorem tile_sum_eq (c : Dev nD) (t : Fin cfg0.N) (p : Fin 2) (i : Fin 125) (ht : t.val = p.val * 125 + i.val)
    (s : Fin 64) (k : Fin 256) :
    (∑ r ∈ Finset.univ.filter (fun r : Fin 4000 => bblk V c t (ix2 r 0) = Cert.Spec.segWord s), xblk V c t (ix2 r k))
      = Cert.Spec.tileSum (xarr V c) (bseg V c) p i s k := by
  unfold Cert.Spec.tileSum
  refine Finset.sum_congr (Finset.filter_congr fun r _ => ?_) fun r _ => ?_
  · rw [bblk_apply V c t r 0 (Cert.Spec.rowOf p i r) (by show (p.val * 125 + i.val) * 4000 + r.val = _; rw [ht])]
  · exact xblk_apply V c t r k (Cert.Spec.rowOf p i r) (by show (p.val * 125 + i.val) * 4000 + r.val = _; rw [ht])

/-- A point's share of the counts, computed on its tile, is the tile's share of the whole. -/
theorem tile_cnt_eq (c : Dev nD) (t : Fin cfg0.N) (p : Fin 2) (i : Fin 125) (ht : t.val = p.val * 125 + i.val)
    (s : Fin 64) :
    (∑ _r ∈ Finset.univ.filter (fun r : Fin 4000 => bblk V c t (ix2 r 0) = Cert.Spec.segWord s), (1 : EReal))
      = Cert.Spec.tileCnt 1 (bseg V c) p i s := by
  unfold Cert.Spec.tileCnt
  refine Finset.sum_congr (Finset.filter_congr fun r _ => ?_) fun r _ => rfl
  rw [bblk_apply V c t r 0 (Cert.Spec.rowOf p i r) (by show (p.val * 125 + i.val) * 4000 + r.val = _; rw [ht])]

/-! ## What one point leaves, from what the point before left -/

/-- First point of a core: both accumulators are the update of zero by the point's tile. -/
theorem point_A (c : Dev nD) (t : Fin cfg0.N) (h0 : t.val % 125 = 0) (h1 : ¬t.val % 125 = 124) :
    (outsAt0 (F := Ideal) V c t.val t.isLt).2.2.1 = k0_pay4 (F := Ideal) (xblk V c t) (bblk V c t) (k0_pay1 (F := Ideal))
    ∧ (outsAt0 (F := Ideal) V c t.val t.isLt).2.2.2 = k0_pay5 (F := Ideal) (bblk V c t) (k0_pay2 (F := Ideal)) := by
  rw [outsAt0_A V c t h0 h1]
  dsimp only
  exact ⟨sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
    sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)⟩

/-- A middle point: both accumulators are the update, by the point's tile, of what the point before left. -/
theorem point_B (c : Dev nD) (n : ℕ) (hn : n + 1 < cfg0.N) (h0 : ¬(n + 1) % 125 = 0) (h1 : ¬(n + 1) % 125 = 124) :
    (outsAt0 (F := Ideal) V c (n + 1) hn).2.2.1
        = k0_pay4 (F := Ideal) (xblk V c ⟨n + 1, hn⟩) (bblk V c ⟨n + 1, hn⟩) (outsAt0 (F := Ideal) V c n (Nat.lt_of_succ_lt hn)).2.2.1
    ∧ (outsAt0 (F := Ideal) V c (n + 1) hn).2.2.2
        = k0_pay5 (F := Ideal) (bblk V c ⟨n + 1, hn⟩) (outsAt0 (F := Ideal) V c n (Nat.lt_of_succ_lt hn)).2.2.2 := by
  have e := outsAt0_B V c ⟨n + 1, hn⟩ h0 h1
  dsimp only at e
  rw [e]
  dsimp only
  exact ⟨sout_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2,
    sout_B_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2⟩

/-- Last point of a core: the accumulators as at a middle point, and each output block the recast accumulator. -/
theorem point_C (c : Dev nD) (n : ℕ) (hn : n + 1 < cfg0.N) (h0 : ¬(n + 1) % 125 = 0) (h1 : (n + 1) % 125 = 124) :
    (outsAt0 (F := Ideal) V c (n + 1) hn).2.2.1
        = k0_pay4 (F := Ideal) (xblk V c ⟨n + 1, hn⟩) (bblk V c ⟨n + 1, hn⟩) (outsAt0 (F := Ideal) V c n (Nat.lt_of_succ_lt hn)).2.2.1
    ∧ (outsAt0 (F := Ideal) V c (n + 1) hn).2.2.2
        = k0_pay5 (F := Ideal) (bblk V c ⟨n + 1, hn⟩) (outsAt0 (F := Ideal) V c n (Nat.lt_of_succ_lt hn)).2.2.2
    ∧ (outsAt0 (F := Ideal) V c (n + 1) hn).1 = k0_pay6 (F := Ideal) (outsAt0 (F := Ideal) V c (n + 1) hn).2.2.1
    ∧ (outsAt0 (F := Ideal) V c (n + 1) hn).2.1 = k0_pay7 (F := Ideal) (outsAt0 (F := Ideal) V c (n + 1) hn).2.2.2 := by
  have e := outsAt0_C V c ⟨n + 1, hn⟩ h0 h1
  dsimp only at e
  rw [e]
  dsimp only
  have a0 := sout_C_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2
  have a1 := sout_C_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2
  have a2 := out_C_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2
  have a3 := out_C_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 (F := Ideal) V c n (Nat.lt_of_succ_lt hn)).2.2.1 (outsAt0 (F := Ideal) V c n (Nat.lt_of_succ_lt hn)).2.2.2
  exact ⟨a0, a1, a2.trans (congrArg (k0_pay6 (F := Ideal)) a0.symm), a3.trans (congrArg (k0_pay7 (F := Ideal)) a1.symm)⟩

/-! ## Along one core's points: the running sums -/

/-- After point j of core p the accumulators hold the shares of tiles 0 to j. -/
theorem scratch_eq (c : Dev nD) (p : Fin 2) : ∀ (j : ℕ) (hj : j < 125) (h : p.val * 125 + j < cfg0.N),
    (∀ (s : Fin 64) (k : Fin 256), (outsAt0 (F := Ideal) V c (p.val * 125 + j) h).2.2.1 (ix2 s k)
        = Cert.Spec.prefixSum (fun i => Cert.Spec.tileSum (xarr V c) (bseg V c) p i s k) j)
    ∧ (∀ (s : Fin 64) (u : Fin 1), (outsAt0 (F := Ideal) V c (p.val * 125 + j) h).2.2.2 (ix2 s u)
        = Cert.Spec.prefixSum (fun i => Cert.Spec.tileCnt 1 (bseg V c) p i s) j)
  | 0, hj, h => by
    have hA := point_A V c ⟨p.val * 125 + 0, h⟩ (by dsimp only; omega) (by dsimp only; omega)
    dsimp only at hA
    constructor
    · intro s k
      refine (congrFun hA.1 (ix2 s k)).trans ((k0_pay4_apply _ _ _ s k).trans ?_)
      rw [k0_pay1_apply, zero_add, tile_sum_eq V c ⟨p.val * 125 + 0, h⟩ p 0 rfl s k, Cert.Spec.prefixSum_zero]
    · intro s u
      refine (congrFun hA.2 (ix2 s u)).trans ((k0_pay5_apply _ _ s u).trans ?_)
      rw [k0_pay2_apply, zero_add, tile_cnt_eq V c ⟨p.val * 125 + 0, h⟩ p 0 rfl s, Cert.Spec.prefixSum_zero]
  | j + 1, hj, h => by
    have ih := scratch_eq c p j (by omega) (Nat.lt_of_succ_lt h)
    have h0 : ¬(p.val * 125 + j + 1) % 125 = 0 := by omega
    have hstep : (outsAt0 (F := Ideal) V c (p.val * 125 + j + 1) h).2.2.1
          = k0_pay4 (F := Ideal) (xblk V c ⟨p.val * 125 + j + 1, h⟩) (bblk V c ⟨p.val * 125 + j + 1, h⟩) (outsAt0 (F := Ideal) V c (p.val * 125 + j) (Nat.lt_of_succ_lt h)).2.2.1
        ∧ (outsAt0 (F := Ideal) V c (p.val * 125 + j + 1) h).2.2.2
          = k0_pay5 (F := Ideal) (bblk V c ⟨p.val * 125 + j + 1, h⟩) (outsAt0 (F := Ideal) V c (p.val * 125 + j) (Nat.lt_of_succ_lt h)).2.2.2 := by
      by_cases h1 : (p.val * 125 + j + 1) % 125 = 124
      · have hC := point_C V c (p.val * 125 + j) h h0 h1
        exact ⟨hC.1, hC.2.1⟩
      · exact point_B V c (p.val * 125 + j) h h0 h1
    constructor
    · intro s k
      refine (congrFun hstep.1 (ix2 s k)).trans ((k0_pay4_apply _ _ _ s k).trans ?_)
      rw [ih.1 s k, tile_sum_eq V c ⟨p.val * 125 + j + 1, h⟩ p ⟨j + 1, hj⟩ (by dsimp only; omega) s k, Cert.Spec.prefixSum_succ _ j hj]
    · intro s u
      refine (congrFun hstep.2 (ix2 s u)).trans ((k0_pay5_apply _ _ s u).trans ?_)
      rw [ih.2 s u, tile_cnt_eq V c ⟨p.val * 125 + j + 1, h⟩ p ⟨j + 1, hj⟩ (by dsimp only; omega) s, Cert.Spec.prefixSum_succ _ j hj]

/-- At the last point of core p each output block holds the core's sums over all 125 tiles. -/
theorem outs_last (c : Dev nD) (p : Fin 2) (h : p.val * 125 + 123 + 1 < cfg0.N) :
    (∀ (u : Fin 1) (s : Fin 64) (k : Fin 256), (outsAt0 (F := Ideal) V c (p.val * 125 + 123 + 1) h).1 (ix3 u s k)
        = ∑ i : Fin 125, Cert.Spec.tileSum (xarr V c) (bseg V c) p i s k)
    ∧ (∀ (u : Fin 1) (s : Fin 64) (v : Fin 1), (outsAt0 (F := Ideal) V c (p.val * 125 + 123 + 1) h).2.1 (ix3 u s v)
        = ∑ i : Fin 125, Cert.Spec.tileCnt 1 (bseg V c) p i s) := by
  have hC := point_C V c (p.val * 125 + 123) h (by omega) (by omega)
  have hS := scratch_eq V c p 124 (by omega) h
  constructor
  · intro u s k
    refine (congrFun hC.2.2.1 (ix3 u s k)).trans ((k0_pay6_apply _ u s k).trans ?_)
    rw [hS.1 s k, Cert.Spec.prefixSum_last]
  · intro u s v
    refine (congrFun hC.2.2.2 (ix3 u s v)).trans ((k0_pay7_apply _ u s v).trans ?_)
    rw [hS.2 s v, Cert.Spec.prefixSum_last]

/-! ## The two written-back blocks make up each output array -/

/-- The array of sums: entry (p, s, k) is core p's sum over its 125 tiles. -/
abbrev sumsG (c : Dev nD) : S2x64x256.Idx → EReal :=
  fun j => ∑ i : Fin 125, Cert.Spec.tileSum (xarr V c) (bseg V c) (j 0) i (j 1) (j 2)
/-- The array of counts: entry (p, s, 0) is core p's count over its 125 tiles. -/
abbrev cntsG (c : Dev nD) : S2x64x1.Idx → EReal :=
  fun j => ∑ i : Fin 125, Cert.Spec.tileCnt 1 (bseg V c) (j 0) i (j 1)

/-- The block of sums core p writes back at its last point is block p of the array of sums. -/
theorem flushed2_at (c : Dev nD) (p : Fin 2) (h : p.val * 125 + 123 + 1 < cfg0.N) :
    (dat0 (F := Ideal) V c).flushed 2 ⟨p.val * 125 + 123 + 1, h⟩
      = ((cfg0.win 2).blk ⟨p.val * 125 + 123 + 1, h⟩).view.read (Elt Ideal) (sumsG V c) := by
  funext y
  have hy0 : (y 0).val < 1 := (y 0).isLt
  have hy1 : (y 1).val < 64 := (y 1).isLt
  have hy2 : (y 2).val < 256 := (y 2).isLt
  have hemb : ((cfg0.win 2).blk ⟨p.val * 125 + 123 + 1, h⟩).view.emb y
      = (ix3 p ⟨(y 1).val, hy1⟩ ⟨(y 2).val, hy2⟩ : S2x64x256.Idx) := funext fun a => Fin.ext (by
    match a with
    | ⟨0, _⟩ => show win0_2.index ⟨p.val * 125 + 123 + 1, h⟩ 0 * 1 + 1 * (y 0).val = p.val
                rw [(idx0_2 ⟨p.val * 125 + 123 + 1, h⟩).1]; dsimp only; omega
    | ⟨1, _⟩ => show win0_2.index ⟨p.val * 125 + 123 + 1, h⟩ 1 * 64 + 1 * (y 1).val = (y 1).val
                rw [(idx0_2 ⟨p.val * 125 + 123 + 1, h⟩).2.1]; omega
    | ⟨2, _⟩ => show win0_2.index ⟨p.val * 125 + 123 + 1, h⟩ 2 * 256 + 1 * (y 2).val = (y 2).val
                rw [(idx0_2 ⟨p.val * 125 + 123 + 1, h⟩).2.2]; omega)
  have hinj : (cfg0.win 2).xinj (grid0.coords ⟨p.val * 125 + 123 + 1, h⟩) y
      = (ix3 (⟨(y 0).val, hy0⟩ : Fin 1) (⟨(y 1).val, hy1⟩ : Fin 64) (⟨(y 2).val, hy2⟩ : Fin 256) : S1x64x256.Idx) := funext fun a => by
    match a with
    | ⟨0, _⟩ => rfl
    | ⟨1, _⟩ => rfl
    | ⟨2, _⟩ => rfl
  show (dat0 (F := Ideal) V c).after 2 ⟨p.val * 125 + 123 + 1, h⟩ ((cfg0.win 2).xinj (grid0.coords ⟨p.val * 125 + 123 + 1, h⟩) y) = _
  rw [after0_2 V c ⟨p.val * 125 + 123 + 1, h⟩, hinj, View.read_apply, hemb]
  exact (outs_last V c p h).1 _ _ _

/-- The block of counts core p writes back at its last point is block p of the array of counts. -/
theorem flushed3_at (c : Dev nD) (p : Fin 2) (h : p.val * 125 + 123 + 1 < cfg0.N) :
    (dat0 (F := Ideal) V c).flushed 3 ⟨p.val * 125 + 123 + 1, h⟩
      = ((cfg0.win 3).blk ⟨p.val * 125 + 123 + 1, h⟩).view.read (Elt Ideal) (cntsG V c) := by
  funext y
  have hy0 : (y 0).val < 1 := (y 0).isLt
  have hy1 : (y 1).val < 64 := (y 1).isLt
  have hy2 : (y 2).val < 1 := (y 2).isLt
  have hemb : ((cfg0.win 3).blk ⟨p.val * 125 + 123 + 1, h⟩).view.emb y
      = (ix3 p ⟨(y 1).val, hy1⟩ ⟨(y 2).val, hy2⟩ : S2x64x1.Idx) := funext fun a => Fin.ext (by
    match a with
    | ⟨0, _⟩ => show win0_3.index ⟨p.val * 125 + 123 + 1, h⟩ 0 * 1 + 1 * (y 0).val = p.val
                rw [(idx0_3 ⟨p.val * 125 + 123 + 1, h⟩).1]; dsimp only; omega
    | ⟨1, _⟩ => show win0_3.index ⟨p.val * 125 + 123 + 1, h⟩ 1 * 64 + 1 * (y 1).val = (y 1).val
                rw [(idx0_3 ⟨p.val * 125 + 123 + 1, h⟩).2.1]; omega
    | ⟨2, _⟩ => show win0_3.index ⟨p.val * 125 + 123 + 1, h⟩ 2 * 1 + 1 * (y 2).val = (y 2).val
                rw [(idx0_3 ⟨p.val * 125 + 123 + 1, h⟩).2.2]; omega)
  have hinj : (cfg0.win 3).xinj (grid0.coords ⟨p.val * 125 + 123 + 1, h⟩) y
      = (ix3 (⟨(y 0).val, hy0⟩ : Fin 1) (⟨(y 1).val, hy1⟩ : Fin 64) (⟨(y 2).val, hy2⟩ : Fin 1) : S1x64x1.Idx) := funext fun a => by
    match a with
    | ⟨0, _⟩ => rfl
    | ⟨1, _⟩ => rfl
    | ⟨2, _⟩ => rfl
  show (dat0 (F := Ideal) V c).after 3 ⟨p.val * 125 + 123 + 1, h⟩ ((cfg0.win 3).xinj (grid0.coords ⟨p.val * 125 + 123 + 1, h⟩) y) = _
  rw [after0_3 V c ⟨p.val * 125 + 123 + 1, h⟩, hinj, View.read_apply, hemb]
  exact (outs_last V c p h).2 _ _ _

/-- A written-back point is the last point of core 0 or of core 1. -/
theorem last_point (t : Fin cfg0.N) (h124 : t.val % 125 = 124) :
    ∃ (p : Fin 2) (h : p.val * 125 + 123 + 1 < cfg0.N), t = ⟨p.val * 125 + 123 + 1, h⟩ := by
  have hN : cfg0.N = 250 := N_0
  have ht := t.isLt
  refine ⟨⟨t.val / 125, by omega⟩, by dsimp only; omega, Fin.ext ?_⟩
  dsimp only; omega

/-- THE SUMS: after the region, entry (p, s, k) of the first output array is core p's sum, over its 125 tiles, of column
    k over the rows of segment s. -/
theorem region0_sum (c : Dev nD) :
    (dat0 (F := Ideal) V c).arrAt 2 cfg0.N
      = fun j : S2x64x256.Idx => ∑ i : Fin 125, Cert.Spec.tileSum (xarr V c) (bseg V c) (j 0) i (j 1) (j 2) := by
  have hN : cfg0.N = 250 := N_0
  refine (dat0 (F := Ideal) V c).arrAt_eq_of_cover 2 (sumsG V c) (fun t hf => ?_) fun j => ?_
  · obtain ⟨p, h, rfl⟩ := last_point t ((flush0_2 t).mp hf)
    exact flushed2_at V c p h
  · have hj0 : (j 0).val < 2 := (j 0).isLt
    have hj1 : (j 1).val < 64 := (j 1).isLt
    have hj2 : (j 2).val < 256 := (j 2).isLt
    have h : (j 0).val * 125 + 123 + 1 < cfg0.N := by omega
    refine ⟨⟨(j 0).val * 125 + 123 + 1, h⟩, (flush0_2 _).mpr (by dsimp only; omega), ?_⟩
    show j ∈ ((View.whole main_v1_0).slice (win0_2.rect ⟨(j 0).val * 125 + 123 + 1, h⟩)).set
    rw [View.set_slice_whole, Rect.mem_set_unit]
    intro a
    match a with
    | ⟨0, _⟩ => show win0_2.index ⟨(j 0).val * 125 + 123 + 1, h⟩ 0 * 1 ≤ (j 0).val ∧ (j 0).val < win0_2.index ⟨(j 0).val * 125 + 123 + 1, h⟩ 0 * 1 + 1
                rw [(idx0_2 ⟨(j 0).val * 125 + 123 + 1, h⟩).1]; dsimp only; omega
    | ⟨1, _⟩ => show win0_2.index ⟨(j 0).val * 125 + 123 + 1, h⟩ 1 * 64 ≤ (j 1).val ∧ (j 1).val < win0_2.index ⟨(j 0).val * 125 + 123 + 1, h⟩ 1 * 64 + 64
                rw [(idx0_2 ⟨(j 0).val * 125 + 123 + 1, h⟩).2.1]; omega
    | ⟨2, _⟩ => show win0_2.index ⟨(j 0).val * 125 + 123 + 1, h⟩ 2 * 256 ≤ (j 2).val ∧ (j 2).val < win0_2.index ⟨(j 0).val * 125 + 123 + 1, h⟩ 2 * 256 + 256
                rw [(idx0_2 ⟨(j 0).val * 125 + 123 + 1, h⟩).2.2]; omega

/-- THE COUNTS: after the region, entry (p, s, 0) of the second output array is core p's number, over its 125 tiles, of
    rows of segment s. -/
theorem region0_cnt (c : Dev nD) :
    (dat0 (F := Ideal) V c).arrAt 3 cfg0.N
      = fun j : S2x64x1.Idx => ∑ i : Fin 125, Cert.Spec.tileCnt 1 (bseg V c) (j 0) i (j 1) := by
  have hN : cfg0.N = 250 := N_0
  refine (dat0 (F := Ideal) V c).arrAt_eq_of_cover 3 (cntsG V c) (fun t hf => ?_) fun j => ?_
  · obtain ⟨p, h, rfl⟩ := last_point t ((flush0_3 t).mp hf)
    exact flushed3_at V c p h
  · have hj0 : (j 0).val < 2 := (j 0).isLt
    have hj1 : (j 1).val < 64 := (j 1).isLt
    have hj2 : (j 2).val < 1 := (j 2).isLt
    have h : (j 0).val * 125 + 123 + 1 < cfg0.N := by omega
    refine ⟨⟨(j 0).val * 125 + 123 + 1, h⟩, (flush0_3 _).mpr (by dsimp only; omega), ?_⟩
    show j ∈ ((View.whole main_v1_1).slice (win0_3.rect ⟨(j 0).val * 125 + 123 + 1, h⟩)).set
    rw [View.set_slice_whole, Rect.mem_set_unit]
    intro a
    match a with
    | ⟨0, _⟩ => show win0_3.index ⟨(j 0).val * 125 + 123 + 1, h⟩ 0 * 1 ≤ (j 0).val ∧ (j 0).val < win0_3.index ⟨(j 0).val * 125 + 123 + 1, h⟩ 0 * 1 + 1
                rw [(idx0_3 ⟨(j 0).val * 125 + 123 + 1, h⟩).1]; dsimp only; omega
    | ⟨1, _⟩ => show win0_3.index ⟨(j 0).val * 125 + 123 + 1, h⟩ 1 * 64 ≤ (j 1).val ∧ (j 1).val < win0_3.index ⟨(j 0).val * 125 + 123 + 1, h⟩ 1 * 64 + 64
                rw [(idx0_3 ⟨(j 0).val * 125 + 123 + 1, h⟩).2.1]; omega
    | ⟨2, _⟩ => show win0_3.index ⟨(j 0).val * 125 + 123 + 1, h⟩ 2 * 1 ≤ (j 2).val ∧ (j 2).val < win0_3.index ⟨(j 0).val * 125 + 123 + 1, h⟩ 2 * 1 + 1
                rw [(idx0_3 ⟨(j 0).val * 125 + 123 + 1, h⟩).2.2]; omega

end

end Cert.KernelIdeal.Hand

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.LibRowScatter.lean ====
import Idealize.ShloMosaic.PureOps.Ideal
import Idealize.ShloMosaic.Lib.ValueIdx
import Mathlib.Algebra.BigOperators.Group.Finset.Basic
import proofs.«421541_j94489280931_2_alg».proof.Proof.LibGatherScatter

/-!
# Row segment scatters, read at an index

A segment sum of the rows of an `[n, C]` array (`segment_sum(x, ids, K)`) lowers to a scatter-add of the `n` rows
into `K` rows of zeros at the ids as an `[n, 1]` array: the updates' axis 1 is the window axis (it goes to the
operand's axis 1), the operand's axis 0 is inserted and is the one the index word names. Update `(t, k')` lands on
element `(s, k)` exactly when the id of row `t`, read signed and NOT clamped, is `s`, and `k' = k`; a row whose id is
outside `[0, K)` lands nowhere.
-/

noncomputable section

open scoped BigOperators
open Idealize.ShloMosaic Idealize.ShloMosaic.ValueIdx

namespace Cert.Lib

/-- The dimension numbers of a row segment scatter: operand `[K, C]`, scatter indices `[n, 1]`, updates `[n, C]`. -/
abbrev rowScatterDims (K C n : Nat)
    (wf : ScatterDims.WF ⟨2, ![K, C]⟩ ⟨2, ![n, 1]⟩ ⟨2, ![n, C]⟩ [1] [0] [0] 1) :
    ScatterDims ⟨2, ![K, C]⟩ ⟨2, ![n, 1]⟩ ⟨2, ![n, C]⟩ where
  updateWindowDims := [1]
  insertedWindowDims := [0]
  scatterDimsToOperandDims := [0]
  indexVectorDim := 1
  wf := wf

/-- Update `(t, k')` of a row segment scatter lands on element `(s, k)` exactly when the index word of row `t`, read
    signed, is `s`, and the columns agree. -/
theorem rowScatter_resultIdx_iff {K C n : Nat}
    (wf : ScatterDims.WF ⟨2, ![K, C]⟩ ⟨2, ![n, 1]⟩ ⟨2, ![n, C]⟩ [1] [0] [0] 1)
    (idx : IVec ⟨2, ![n, 1]⟩ 32) (t : Fin n) (k k' : Fin C) (s : Fin K) :
    (rowScatterDims K C n wf).resultIdx? (ix2 t k') idx = some (ix2 s k)
      ↔ (idx (ix2 t 0)).toInt = (s.val : Int) ∧ k' = k := by
  -- axis 0 is inserted and named by the map: the start is the index word read signed, the window coordinate is 0
  have hstart0 : (rowScatterDims K C n wf).start (ix2 t k') idx (0 : Fin 2) = (idx (ix2 t 0)).toInt := by
    unfold ScatterDims.start
    rw [dif_pos (show (0 : Fin 2) ∈ (rowScatterDims K C n wf).scatterDimsToOperandDims from List.mem_singleton.mpr rfl)]
    have hsi : (rowScatterDims K C n wf).siIdx (ix2 t k') ⟨List.idxOf (0 : Fin 2) (rowScatterDims K C n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin0 : (rowScatterDims K C n wf).window (ix2 t k') (0 : Fin 2) = 0 := by
    unfold ScatterDims.window
    rw [dif_neg]
    show (0 : Fin 2) ∉ (⟨2, ![K, C]⟩ : Shape).kept [0]
    simp [Shape.kept]
  -- axis 1 is kept and not named by the map: the start is 0, the window coordinate is the update's column
  have hstart1 : (rowScatterDims K C n wf).start (ix2 t k') idx (1 : Fin 2) = 0 := by
    unfold ScatterDims.start
    rw [dif_neg]
    show (1 : Fin 2) ∉ ([0] : List (Fin 2))
    decide
  have hwin1 : (rowScatterDims K C n wf).window (ix2 t k') (1 : Fin 2) = k'.val := by
    have hk : (1 : Fin 2) ∈ (rowScatterDims K C n wf).sKept := by
      show (1 : Fin 2) ∈ (⟨2, ![K, C]⟩ : Shape).kept [0]
      simp [Shape.kept]
    unfold ScatterDims.window
    rw [dif_pos hk]
    rfl
  have hsz0 : (⟨2, ![K, C]⟩ : Shape).size (0 : Fin 2) = K := rfl
  have hsz1 : (⟨2, ![K, C]⟩ : Shape).size (1 : Fin 2) = C := rfl
  have hs := s.isLt
  have hk' := k'.isLt
  unfold ScatterDims.resultIdx?
  constructor
  · intro h
    split at h
    · rename_i hin
      have h0 := congrArg Fin.val (congrFun (Option.some.inj h) (0 : Fin 2))
      have h1 := congrArg Fin.val (congrFun (Option.some.inj h) (1 : Fin 2))
      have h3 := (hin 0).1
      rw [hstart0, hwin0] at h3
      change ((rowScatterDims K C n wf).start (ix2 t k') idx 0 + ((rowScatterDims K C n wf).window (ix2 t k') 0 : Nat)).toNat = s.val at h0
      change ((rowScatterDims K C n wf).start (ix2 t k') idx 1 + ((rowScatterDims K C n wf).window (ix2 t k') 1 : Nat)).toNat = k.val at h1
      rw [hstart0, hwin0] at h0
      rw [hstart1, hwin1] at h1
      refine ⟨by omega, Fin.ext (by omega)⟩
    · exact absurd h (by simp)
  · rintro ⟨hv, rfl⟩
    have hin0 : 0 ≤ (rowScatterDims K C n wf).start (ix2 t k') idx 0 + ((rowScatterDims K C n wf).window (ix2 t k') 0 : Nat)
        ∧ (rowScatterDims K C n wf).start (ix2 t k') idx 0 + ((rowScatterDims K C n wf).window (ix2 t k') 0 : Nat)
          < ((⟨2, ![K, C]⟩ : Shape).size 0 : Nat) := by
      rw [hstart0, hwin0, hv, hsz0]
      omega
    have hin1 : 0 ≤ (rowScatterDims K C n wf).start (ix2 t k') idx 1 + ((rowScatterDims K C n wf).window (ix2 t k') 1 : Nat)
        ∧ (rowScatterDims K C n wf).start (ix2 t k') idx 1 + ((rowScatterDims K C n wf).window (ix2 t k') 1 : Nat)
          < ((⟨2, ![K, C]⟩ : Shape).size 1 : Nat) := by
      rw [hstart1, hwin1, hsz1]
      omega
    have hin : ∀ a, 0 ≤ (rowScatterDims K C n wf).start (ix2 t k') idx a + ((rowScatterDims K C n wf).window (ix2 t k') a : Nat)
        ∧ (rowScatterDims K C n wf).start (ix2 t k') idx a + ((rowScatterDims K C n wf).window (ix2 t k') a : Nat)
          < ((⟨2, ![K, C]⟩ : Shape).size a : Nat) := by
      intro a
      match a with
      | ⟨0, _⟩ => exact hin0
      | ⟨1, _⟩ => exact hin1
    rw [dif_pos hin]
    congr 1
    have e0 : ((rowScatterDims K C n wf).start (ix2 t k') idx 0 + ((rowScatterDims K C n wf).window (ix2 t k') 0 : Nat)).toNat = s.val := by
      rw [hstart0, hwin0, hv]
      simp
    have e1 : ((rowScatterDims K C n wf).start (ix2 t k') idx 1 + ((rowScatterDims K C n wf).window (ix2 t k') 1 : Nat)).toNat = k'.val := by
      rw [hstart1, hwin1]
      simp
    funext a
    refine Fin.ext ?_
    match a with
    | ⟨0, _⟩ => exact e0
    | ⟨1, _⟩ => exact e1

/-- THE ROW SEGMENT SCATTER-ADD READ AT `(s, k)` (at the ideal instance): the operand's element plus the sum, over the
    rows whose index word is the word of `s`, of the updates' column `k`. -/
theorem hostScatterAdd_rows_apply {K C n : Nat} (hK : K ≤ 2 ^ 31)
    (wf : ScatterDims.WF ⟨2, ![K, C]⟩ ⟨2, ![n, 1]⟩ ⟨2, ![n, C]⟩ [1] [0] [0] 1)
    (x : (⟨2, ![K, C]⟩ : Shape).Idx → EReal) (idx : IVec ⟨2, ![n, 1]⟩ 32) (upd : (⟨2, ![n, C]⟩ : Shape).Idx → EReal)
    (s : Fin K) (k : Fin C) :
    Ideal.hostScatterAdd (rowScatterDims K C n wf) x idx upd (ix2 s k)
      = x (ix2 s k) + ∑ t ∈ Finset.univ.filter (fun t : Fin n => idx (ix2 t 0) = BitVec.ofNat 32 s.val), upd (ix2 t k) := by
  unfold Ideal.hostScatterAdd
  congr 1
  -- the updates that land on `(s, k)` are the column-`k` entries of the rows whose word is the word of `s`
  have hs : s.val < 2 ^ 31 := by have := s.isLt; omega
  refine Finset.sum_nbij' (fun j : (⟨2, ![n, C]⟩ : Shape).Idx => (idxEquiv2 j).1) (fun t => ix2 t k) ?_ ?_ ?_ ?_ ?_
  · intro j hj
    obtain ⟨t, k', rfl⟩ : ∃ (t : Fin n) (k' : Fin C), j = ix2 t k' := ⟨j 0, j 1, eq_ix2 j⟩
    have hj' := (Finset.mem_filter.1 hj).2
    refine Finset.mem_filter.2 ⟨Finset.mem_univ _, ?_⟩
    show idx (ix2 t 0) = BitVec.ofNat 32 s.val
    exact (toInt_eq_iff_eq_ofNat _ _ hs).1 ((rowScatter_resultIdx_iff wf idx t k k' s).1 hj').1
  · intro t ht
    have ht' := (Finset.mem_filter.1 ht).2
    exact Finset.mem_filter.2 ⟨Finset.mem_univ _,
      (rowScatter_resultIdx_iff wf idx t k k s).2 ⟨(toInt_eq_iff_eq_ofNat _ _ hs).2 ht', rfl⟩⟩
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl
  · intro t _
    rfl
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl

end Cert.Lib

end
-- ==== Proof.RefValue.lean ====
import proofs.«421541_j94489280931_2_alg».proof.Proof.Gen.ReferenceIdeal.Run
import proofs.«421541_j94489280931_2_alg».proof.Proof.Gen.ReferenceIdeal.Read
import proofs.«421541_j94489280931_2_alg».proof.Proof.Spec
import proofs.«421541_j94489280931_2_alg».proof.Proof.LibGatherScatter
import proofs.«421541_j94489280931_2_alg».proof.Proof.LibRowScatter
import Idealize.ShloMosaic.Lib.ValueIdx
import Idealize.ShloMosaic.Lib.Pipeline.Value
import Idealize.ShloMosaic.PureOps.Ideal.Laws
import Idealize.ShloMosaic.Lib.IdealHost

/-!
# The reference's result, as the specification

The reference computes, from the rows `x` (1,000,000 × 256), the segment ids `b` and the two weight matrices: the
segment mean (the segment sum of the rows over the segment's row count, the count taken as at least one), then a gate
(a 64 × 256 array, a fixed function `gateR` of the mean and the weights: two matrix products, a maximum with zero and a
logistic), and multiplies every row by its own segment's gate row. Here the segment mean is shown to be
`Cert.Spec.zmean x b`, and the whole result `Cert.Spec.gated x b (gateR (Cert.Spec.zmean x b) W1 W2)` when every id is
the word of a segment.
-/

noncomputable section

open scoped BigOperators
open Cert.ReferenceIdeal Cert.ReferenceIdeal.Gen Idealize.ShloMosaic Idealize.ShloMosaic.TcCoe Idealize.SL.Sem
  Idealize.ShloMosaic.StableHlo Idealize.ShloMosaic.ValueIdx

namespace Cert.ReferenceIdeal.RefValue

/-- The gate as a function of the segment mean `z` and the two weight matrices: `1 / (1 + exp (-(max (z W1) 0) W2))`. -/
def gateR (z : FVec Ideal S64x256 .f32) (W1 : FVec Ideal S256x64 .f32) (W2 : FVec Ideal S64x256 .f32) :
    FVec Ideal S64x256 .f32 :=
  Host.divf (broadcastInDim S64x256 ![] bcast_S_S64x256 (constant (F := Ideal) S_ .f32 0x3F800000#32)) (addf (broadcastInDim S64x256 ![] bcast_S_S64x256 (constant (F := Ideal) S_ .f32 0x3F800000#32)) (Host.exp (Host.negf (Host.dotGeneral dot_S64x64_S64x256_S64x256_1_0_0_1_n_n none (maximumf (Host.dotGeneral dot_S64x256_S256x64_S64x64_1_0_0_1_n_n none z W1) (broadcastInDim S64x64 ![] bcast_S_S64x64 (constant (F := Ideal) S_ .f32 0x00000000#32))) W2))))

/-- A scalar zero broadcast to any shape reads zero. -/
theorem zeros_apply {T : Shape} (h : S_.BroadcastsInDim T ![]) (j : T.Idx) :
    broadcastInDim T ![] h (constant (F := Ideal) S_ .f32 0x00000000#32) j = (0 : EReal) := by
  rw [broadcastInDim_scalar_apply]
  exact Ideal.ofBits_zero_f32

/-- A scalar one broadcast to any shape reads one. -/
theorem ones_apply {T : Shape} (h : S_.BroadcastsInDim T ![]) (j : T.Idx) :
    broadcastInDim T ![] h (constant (F := Ideal) S_ .f32 0x3F800000#32) j = (1 : EReal) := by
  rw [broadcastInDim_scalar_apply]
  exact Ideal.ofBits_one_f32

/-- The ids as an `[n, 1]` array read at `(t, 0)`: the id of row `t`. -/
theorem ids_apply (b : IVec S1000000 32) (t : Fin 1000000) :
    broadcastInDim S1000000x1 ![0] bcast_S1000000_S1000000x1_0 b (ix2 t 0) = b (ix1 t) :=
  broadcastInDim_apply _ bcast_S1000000_S1000000x1_0 b (ix2 t 0) (ix1 t) (fun a => match a with
    | ⟨0, _⟩ => by show t.val = if (1000000 : Nat) = 1 then 0 else t.val; rw [if_neg (by decide)])

/-- The row segment scatter of the reference read at `(s, k)`. -/
theorem rowScatter_read (z : FVec Ideal S64x256 .f32) (idx : IVec S1000000x1 32) (u : FVec Ideal S1000000x256 .f32)
    (s : Fin 64) (k : Fin 256) :
    Host.scatterAdd scatter_S64x256_S1000000x1_S1000000x256_1_0_0_1 z idx u (ix2 s k)
      = z (ix2 s k) + ∑ t ∈ Finset.univ.filter (fun t : Fin 1000000 => idx (ix2 t 0) = BitVec.ofNat 32 s.val), u (ix2 t k) :=
  Cert.Lib.hostScatterAdd_rows_apply (K := 64) (C := 256) (n := 1000000) (by norm_num)
    scatter_S64x256_S1000000x1_S1000000x256_1_0_0_1_wf z idx u s k

/-- The segment scatter of the reference read at `s`. -/
theorem segScatter_read (z : FVec Ideal S64 .f32) (idx : IVec S1000000x1 32) (u : FVec Ideal S1000000 .f32) (s : Fin 64) :
    Host.scatterAdd scatter_S64_S1000000x1_S1000000_n_0_0_1 z idx u (ix1 s)
      = z (ix1 s) + ∑ t ∈ Finset.univ.filter (fun t : Fin 1000000 => idx (ix2 t 0) = BitVec.ofNat 32 s.val), u (ix1 t) :=
  Cert.Lib.hostScatterAdd_seg_apply (K := 64) (n := 1000000) (by norm_num)
    scatter_S64_S1000000x1_S1000000_n_0_0_1_wf z idx u s

/-- The row gather of the reference read at `(t, k)`. -/
theorem gather_read (g : FVec Ideal S64x256 .f32) (idx : IVec S1000000x1 32) (t : Fin 1000000) (k : Fin 256) :
    Host.gather gather_S64x256_S1000000x1_S1000000x256_1_0_n_n_0_1_1256 g idx (ix2 t k)
      = g (ix2 (Cert.Lib.clampRow 64 (by norm_num) (idx (ix2 t 0))) k) :=
  Cert.Lib.gather_rows_apply (N := 64) (C := 256) (n := 1000000) (by norm_num)
    gather_S64x256_S1000000x1_S1000000x256_1_0_n_n_0_1_1256_wf g idx t k

/-- A per-segment array spread over the 256 columns reads, at `(s, k)`, its entry at `s`. -/
theorem spread_apply (m : FVec Ideal S64 .f32) (s : Fin 64) (k : Fin 256) :
    broadcastInDim S64x256 ![0, 1] bcast_S64x1_S64x256_0_1 (broadcastInDim S64x1 ![0] bcast_S64_S64x1_0 m) (ix2 s k)
      = m (ix1 s) := by
  refine (broadcastInDim_apply _ bcast_S64x1_S64x256_0_1 _ (ix2 s k) (ix2 s 0) (fun a => match a with
    | ⟨0, _⟩ => by show s.val = if (64 : Nat) = 1 then 0 else s.val; rw [if_neg (by decide)]
    | ⟨1, _⟩ => by show 0 = if (1 : Nat) = 1 then 0 else k.val; rw [if_pos rfl])).trans ?_
  exact broadcastInDim_apply _ bcast_S64_S64x1_0 m (ix2 s 0) (ix1 s) (fun a => match a with
    | ⟨0, _⟩ => by show s.val = if (64 : Nat) = 1 then 0 else s.val; rw [if_neg (by decide)])

/-- The reference's segment mean is the specification's. -/
theorem mean_eq (x : FVec Ideal S1000000x256 .f32) (b : IVec S1000000 32) :
    (Host.divf (Host.scatterAdd scatter_S64x256_S1000000x1_S1000000x256_1_0_0_1 (broadcastInDim S64x256 ![] bcast_S_S64x256 (constant (F := Ideal) S_ .f32 0x00000000#32)) (broadcastInDim S1000000x1 ![0] bcast_S1000000_S1000000x1_0 b) x) (broadcastInDim S64x256 ![0, 1] bcast_S64x1_S64x256_0_1 (broadcastInDim S64x1 ![0] bcast_S64_S64x1_0 (maximumf (Host.scatterAdd scatter_S64_S1000000x1_S1000000_n_0_0_1 (broadcastInDim S64 ![] bcast_S_S64 (constant (F := Ideal) S_ .f32 0x00000000#32)) (broadcastInDim S1000000x1 ![0] bcast_S1000000_S1000000x1_0 b) (broadcastInDim S1000000 ![] bcast_S_S1000000 (constant (F := Ideal) S_ .f32 0x3F800000#32))) (broadcastInDim S64 ![] bcast_S_S64 (constant (F := Ideal) S_ .f32 0x3F800000#32))))) : FVec Ideal S64x256 .f32)
      = Cert.Spec.zmean x b := by
  funext j
  obtain ⟨s, k, rfl⟩ : ∃ (s : Fin 64) (k : Fin 256), j = ix2 s k := ⟨j 0, j 1, eq_ix2 j⟩
  rw [hostDivf_apply]
  show Ideal.div _ _ = Ideal.div (Cert.Spec.segSum x b s k) (max (Cert.Spec.segCnt 1 b s) 1)
  refine congrArg₂ Ideal.div ?_ ?_
  · -- the numerator: zero plus the sum of column `k` over the rows whose id is the word of `s`
    rw [rowScatter_read, zeros_apply, zero_add]
    unfold Cert.Spec.segSum
    exact Finset.sum_congr (Finset.filter_congr fun t _ => by rw [ids_apply]) (fun _ _ => rfl)
  · -- the denominator: the larger of one and the number of such rows
    rw [spread_apply, maximumf_apply, segScatter_read, zeros_apply, zero_add, ones_apply]
    unfold Cert.Spec.segCnt
    refine congrArg (fun c : EReal => max c 1) ?_
    exact Finset.sum_congr (Finset.filter_congr fun t _ => by rw [ids_apply]) (fun t _ => ones_apply _ _)

/-- A segment's word is kept by the wrap of negative ids: it is not negative. -/
theorem wrap_segWord (s : Fin 64) (a : BitVec 32) :
    Scalar.select (IntOp.cmpi .slt (Cert.Spec.segWord s) 0#32) a (Cert.Spec.segWord s) = Cert.Spec.segWord s := by
  have h : (Cert.Spec.segWord s).slt 0#32 = false := Bool.eq_false_iff.2 (Cert.Spec.segWord_not_slt s)
  show Scalar.select (BitVec.ofBool ((Cert.Spec.segWord s).slt 0#32)) a (Cert.Spec.segWord s) = Cert.Spec.segWord s
  rw [h]
  exact select_zero _ _

/-- The gather's start word of row `t`: the row's id when it is the word of a segment. -/
theorem start_apply (b : IVec S1000000 32) (hb : Cert.Spec.InRange b) (t : Fin 1000000) :
    (broadcastInDim S1000000x1 ![0] bcast_S1000000_S1000000x1_0 (select (cmpi .slt b (broadcastInDim S1000000 ![] bcast_S_S1000000 (constantI S_ 32 0#32))) (addi b (broadcastInDim S1000000 ![] bcast_S_S1000000 (constantI S_ 32 64#32))) b)) (ix2 t 0) = b (ix1 t) := by
  rw [ids_apply]
  obtain ⟨s, hs⟩ := hb t
  show Scalar.select (IntOp.cmpi .slt (b (ix1 t)) (broadcastInDim S1000000 ![] bcast_S_S1000000 (constantI S_ 32 0#32) (ix1 t)))
      (IntOp.addi (b (ix1 t)) (broadcastInDim S1000000 ![] bcast_S_S1000000 (constantI S_ 32 64#32) (ix1 t))) (b (ix1 t)) = b (ix1 t)
  rw [broadcastInDim_scalar_apply bcast_S_S1000000 (constantI S_ 32 0#32), hs]
  exact wrap_segWord s _

/-- The reference's result is the rows gated by the gate of the segment mean, when every id is the word of a segment. -/
theorem result_eq (x : FVec Ideal S1000000x256 .f32) (b : IVec S1000000 32) (W1 : FVec Ideal S256x64 .f32)
    (W2 : FVec Ideal S64x256 .f32) (hb : Cert.Spec.InRange b) :
    (mulf x (Host.gather gather_S64x256_S1000000x1_S1000000x256_1_0_n_n_0_1_1256 (Host.divf (broadcastInDim S64x256 ![] bcast_S_S64x256 (constant (F := Ideal) S_ .f32 0x3F800000#32)) (addf (broadcastInDim S64x256 ![] bcast_S_S64x256 (constant (F := Ideal) S_ .f32 0x3F800000#32)) (Host.exp (Host.negf (Host.dotGeneral dot_S64x64_S64x256_S64x256_1_0_0_1_n_n none (maximumf (Host.dotGeneral dot_S64x256_S256x64_S64x64_1_0_0_1_n_n none (Host.divf (Host.scatterAdd scatter_S64x256_S1000000x1_S1000000x256_1_0_0_1 (broadcastInDim S64x256 ![] bcast_S_S64x256 (constant (F := Ideal) S_ .f32 0x00000000#32)) (broadcastInDim S1000000x1 ![0] bcast_S1000000_S1000000x1_0 b) x) (broadcastInDim S64x256 ![0, 1] bcast_S64x1_S64x256_0_1 (broadcastInDim S64x1 ![0] bcast_S64_S64x1_0 (maximumf (Host.scatterAdd scatter_S64_S1000000x1_S1000000_n_0_0_1 (broadcastInDim S64 ![] bcast_S_S64 (constant (F := Ideal) S_ .f32 0x00000000#32)) (broadcastInDim S1000000x1 ![0] bcast_S1000000_S1000000x1_0 b) (broadcastInDim S1000000 ![] bcast_S_S1000000 (constant (F := Ideal) S_ .f32 0x3F800000#32))) (broadcastInDim S64 ![] bcast_S_S64 (constant (F := Ideal) S_ .f32 0x3F800000#32)))))) W1) (broadcastInDim S64x64 ![] bcast_S_S64x64 (constant (F := Ideal) S_ .f32 0x00000000#32))) W2))))) (broadcastInDim S1000000x1 ![0] bcast_S1000000_S1000000x1_0 (select (cmpi .slt b (broadcastInDim S1000000 ![] bcast_S_S1000000 (constantI S_ 32 0#32))) (addi b (broadcastInDim S1000000 ![] bcast_S_S1000000 (constantI S_ 32 64#32))) b))) : FVec Ideal S1000000x256 .f32)
      = Cert.Spec.gated x b (gateR (Cert.Spec.zmean x b) W1 W2) := by
  funext j
  obtain ⟨t, k, rfl⟩ : ∃ (t : Fin 1000000) (k : Fin 256), j = ix2 t k := ⟨j 0, j 1, eq_ix2 j⟩
  rw [mulf_apply, gather_read, start_apply b hb t]
  show x (ix2 t k) * gateR (Host.divf (Host.scatterAdd scatter_S64x256_S1000000x1_S1000000x256_1_0_0_1 (broadcastInDim S64x256 ![] bcast_S_S64x256 (constant (F := Ideal) S_ .f32 0x00000000#32)) (broadcastInDim S1000000x1 ![0] bcast_S1000000_S1000000x1_0 b) x) (broadcastInDim S64x256 ![0, 1] bcast_S64x1_S64x256_0_1 (broadcastInDim S64x1 ![0] bcast_S64_S64x1_0 (maximumf (Host.scatterAdd scatter_S64_S1000000x1_S1000000_n_0_0_1 (broadcastInDim S64 ![] bcast_S_S64 (constant (F := Ideal) S_ .f32 0x00000000#32)) (broadcastInDim S1000000x1 ![0] bcast_S1000000_S1000000x1_0 b) (broadcastInDim S1000000 ![] bcast_S_S1000000 (constant (F := Ideal) S_ .f32 0x3F800000#32))) (broadcastInDim S64 ![] bcast_S_S64 (constant (F := Ideal) S_ .f32 0x3F800000#32)))))) W1 W2 (ix2 (Cert.Lib.clampRow 64 (by norm_num) (b (ix1 t))) k)
    = x (ix2 t k) * gateR (Cert.Spec.zmean x b) W1 W2 (ix2 (Cert.Spec.segOf (b (ix1 t))) k)
  rw [mean_eq]
  rfl

end Cert.ReferenceIdeal.RefValue

end
-- ==== Proof.PreRange.lean ====
import proofs.«421541_j94489280931_2_alg».proof.Pre_finite_inputs
import proofs.«421541_j94489280931_2_alg».proof.Proof.Spec
import Idealize.ShloMosaic.Lib.ReduceAll
import Idealize.ShloMosaic.PureOps.Ideal

/-!
# The ids' range, read out of the precondition

The precondition's last conjunct says every row's id `w` satisfies `0 ≤ w < 64` as a signed 32-bit integer; such a
word is the word of a segment `s < 64`.
-/

set_option maxRecDepth 16384

noncomputable section

namespace Cert.PreRange

open Cert.Pre_finite_inputs
open Idealize.ShloMosaic Idealize.ShloMosaic.ValueIdx

variable [Cert.Pre_finite_inputs.Facts]

theorem ofBool_eq_one (b : Bool) : BitVec.ofBool b = 1#1 ↔ b = true := by cases b <;> decide
theorem and1 : ∀ (a b : BitVec 1), IntOp.andi a b = 1#1 ↔ a = 1#1 ∧ b = 1#1 := by decide

/-- A word in `[0, 64)`, read signed, is the word of a segment. -/
theorem word_of_range (w : BitVec 32) (h0 : IntOp.cmpi .sge w (0#32) = 1#1)
    (h1 : IntOp.cmpi .slt w (64#32) = 1#1) : ∃ s : Fin 64, w = Cert.Spec.segWord s := by
  have hlt : w.toNat < 64 := by
    unfold IntOp.cmpi at h0 h1
    rw [ofBool_eq_one] at h0 h1
    simp only [BitVec.slt, BitVec.sle, decide_eq_true_eq] at h0 h1
    have h32 := w.isLt
    unfold BitVec.toInt at h0 h1
    split at h1 <;> simp at h0 h1 <;> omega
  exact ⟨⟨w.toNat, hlt⟩, BitVec.eq_of_toNat_eq (by
    show w.toNat = (BitVec.ofNat 32 w.toNat).toNat
    rw [BitVec.toNat_ofNat]; exact (Nat.mod_eq_of_lt w.isLt).symm)⟩

/-- THE PRECONDITION DECODED: every row's id is the word of a segment. -/
theorem inRange_of_pre (x : FVec Ideal S1000000x256 .f32) (b : IVec S1000000 32) (W1 : FVec Ideal S256x64 .f32)
    (W2 : FVec Ideal S64x256 .f32) (h : fn (F := Ideal) x b W1 W2 = fun _ => 1#1) : Cert.Spec.InRange b := by
  intro t
  have e := congrFun h ix0
  unfold fn fn_part1 at e
  simp only [andi] at e
  rw [and1] at e
  have e2 := Host.reduce_andi_all (t := S_) _ _ _ _ _ e.2 (ix1 t)
  simp only [andi, cmpi, broadcastInDim, constantI] at e2
  rw [and1] at e2
  exact word_of_range _ e2.1 e2.2

end Cert.PreRange

end
-- ==== Proof.lean ====
/-
  The certificate of the squeeze-and-excite kernel against its reference: three frames, an empty ledger, and the
  equality of the two idealized programs over the extended reals.

  Both programs compute, for rows `x t` (256 numbers each) with segment ids `b t`, the gated rows
  `x t k · g (b t) k`, where `g = σ(relu(z · W1) · W2)` and `z s k` is the mean of the rows of segment `s` (the
  segment's sum over its row count, the count taken as at least one). The kernel builds the segment sums and counts as
  one-hot contractions, tile by tile in a carried accumulator on each half of the rows, adds the two halves on the host, and
  selects a row's gate by another one-hot contraction; the reference scatters the rows into their segments and gathers
  the gate row by the id. Sums of extended reals are commutative and associative and `0 · y = 0` for every `y`, so the
  tilewise sums are the segment sums; and where every id is a segment's word — the stated range `0 ≤ id < 64`, the one
  place the precondition is used — the one-hot selection is the gather. The chain from the mean to the gate is the same
  operations in both programs and is carried as one function.
-/
import proofs.«421541_j94489280931_2_alg».proof.Defs
import proofs.«421541_j94489280931_2_alg».proof.Proof.Gen.Kernel
import proofs.«421541_j94489280931_2_alg».proof.Proof.Gen.KernelIdeal
import proofs.«421541_j94489280931_2_alg».proof.Proof.Gen.ReferenceIdeal
import proofs.«421541_j94489280931_2_alg».proof.Proof.Gen.ReferenceIdeal.Run
import proofs.«421541_j94489280931_2_alg».proof.Proof.Gen.ReferenceIdeal.Read
import proofs.«421541_j94489280931_2_alg».proof.Proof.Gen.Pre_finite_inputs
import proofs.«421541_j94489280931_2_alg».proof.Proof.KernelRun
import proofs.«421541_j94489280931_2_alg».proof.Proof.KernelIdealRun
import proofs.«421541_j94489280931_2_alg».proof.Proof.KernelIdealHostValue
import proofs.«421541_j94489280931_2_alg».proof.Proof.KernelIdealRegion0Value
import proofs.«421541_j94489280931_2_alg».proof.Proof.RefValue
import proofs.«421541_j94489280931_2_alg».proof.Proof.PreRange
import Idealize.ShloMosaic.Adequacy
import Idealize.ShloMosaic.Init

noncomputable section

namespace Cert.Proof

open Idealize.ShloMosaic Idealize.SL.Sem

/-- The chain from the mean to the gate is the same operations in the kernel's program and in the reference. -/
theorem gate_eq (z : FVec Ideal Cert.KernelIdeal.S64x256 .f32) (W1 : FVec Ideal Cert.KernelIdeal.S256x64 .f32)
    (W2 : FVec Ideal Cert.KernelIdeal.S64x256 .f32) [Cert.KernelIdeal.Facts] [Cert.ReferenceIdeal.Facts] :
    Cert.KernelIdeal.Hand.gateK (F := Ideal) z W1 W2 = Cert.ReferenceIdeal.RefValue.gateR z W1 W2 := rfl

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Run from memories that agree on the arguments, both idealized programs end with the gated rows. -/
theorem algebraic [Cert.KernelIdeal.Facts] [Cert.ReferenceIdeal.Facts] [Cert.Pre_finite_inputs.Facts] :
    Cert.algebraic_KernelIdeal_ReferenceIdeal := by
  intro m ρ m' ρ' hpre hagree
  have hb : ∀ c : Dev Cert.KernelIdeal.nD, Cert.Spec.InRange
      (m ((c.tc : Thread Cert.KernelIdeal.nD Cert.KernelIdeal.τ).loc Cert.KernelIdeal.main_arg1)) :=
    fun c => Cert.PreRange.inRange_of_pre _ _ _ _ (hpre c)
  refine ⟨fun c => Cert.Spec.gated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.ReferenceIdeal.RefValue.gateR (Cert.Spec.zmean
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · refine (θ_run Cert.KernelIdeal.defs _ _).mono (fun _ h c => ⟨(h c).1.trans ?_, (h c).2⟩)
      (Cert.KernelIdeal.Hand.run_value (F := Ideal) m ρ)
    rw [Cert.KernelIdeal.Hand.kernel_result_of m ρ c
      (Cert.KernelIdeal.Hand.region0_sum (Cert.KernelIdeal.Hand.V1 m ρ) c)
      (Cert.KernelIdeal.Hand.region0_cnt (Cert.KernelIdeal.Hand.V1 m ρ) c) (hb c), gate_eq]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.result_eq _ _ _ _ (hb c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
